-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S393216 : Shape := ⟨1, ![393216]⟩
abbrev S393216x1 : Shape := ⟨2, ![393216, 1]⟩
abbrev S1x257 : Shape := ⟨2, ![1, 257]⟩
abbrev S1 : Shape := ⟨1, ![1]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel
  bcast_S_S393216x1 : S_.BroadcastsInDim S393216x1 (![] : Fin 0 → Fin S393216x1.rank)
  reducesTo_S393216x1_S_d0_1 : S393216x1.ReducesTo [0, 1] S_
  bcast_S_S1x257 : S_.BroadcastsInDim S1x257 (![] : Fin 0 → Fin S1x257.rank)
  reducesTo_S1x257_S_d0_1 : S1x257.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S12288x128 .f32) (main_arg1 : IVec S393216 32) (main_arg2 : IVec S393216 32) (main_arg3 : FVec F S393216x1 .f32) (main_arg4 : FVec F S1x257 .f32) (main_arg5 : FVec F S1 .f32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  let main_v4 : FVec F S393216x1 .f32 := Host.absf main_arg3
  let main_cst_0 : FVec F S_ .f32 := constant S_ .f32 0x7F800000#32
  let main_v5 : FVec F S393216x1 .f32 := broadcastInDim S393216x1 ![] bcast_S_S393216x1 main_cst_0
  let main_v6 : IVec S393216x1 1 := cmpf .olt main_v4 main_v5
  let main_c_1 : IVec S_ 1 := constantI S_ 1 1#1
  let main_v7 : IVec S_ 1 := (fun x v => Host.reduce IntOp.andi x v reducesTo_S393216x1_S_d0_1 h_S_) main_v6 main_c_1
  let main_v8 : IVec S_ 1 := andi main_v3 main_v7
  let main_v9 : FVec F S1x257 .f32 := Host.absf main_arg4
  let main_cst_2 : FVec F S_ .f32 := constant S_ .f32 0x7F800000#32
  let main_v10 : FVec F S1x257 .f32 := broadcastInDim S1x257 ![] bcast_S_S1x257 main_cst_2
  let main_v11 : IVec S1x257 1 := cmpf .olt main_v9 main_v10
  let main_c_3 : IVec S_ 1 := constantI S_ 1 1#1
  let main_v12 : IVec S_ 1 := (fun x v => Host.reduce IntOp.andi x v reducesTo_S1x257_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S12288x128 : Shape := ⟨2, ![12288, 128]⟩
abbrev S393216 : Shape := ⟨1, ![393216]⟩
abbrev S393216x1 : Shape := ⟨2, ![393216, 1]⟩
abbrev S1x257 : Shape := ⟨2, ![1, 257]⟩
abbrev S1 : Shape := ⟨1, ![1]⟩
abbrev S1x128 : Shape := ⟨2, ![1, 128]⟩
abbrev S128 : Shape := ⟨1, ![128]⟩
abbrev S1x1 : Shape := ⟨2, ![1, 1]⟩
abbrev S_ : Shape := ⟨0, ![]⟩
abbrev S12288 : Shape := ⟨1, ![12288]⟩
abbrev S12288x12288 : Shape := ⟨2, ![12288, 12288]⟩
abbrev S256x12288 : Shape := ⟨2, ![256, 12288]⟩
abbrev S393216x2 : Shape := ⟨2, ![393216, 2]⟩

abbrev nBuf : Space → Nat
  | .hbm => 61
  | .vmem => 7
  | .smem => 0
  | _ => 0

abbrev bufTy : (tb : Table) → Fin (tcTables nBuf tb) → BufTy
  | .hbm, ⟨0, _⟩ => ⟨S12288x128, .f32⟩
  | .hbm, ⟨1, _⟩ => ⟨S393216, .i32⟩
  | .hbm, ⟨2, _⟩ => ⟨S393216, .i32⟩
  | .hbm, ⟨3, _⟩ => ⟨S393216x1, .f32⟩
  | .hbm, ⟨4, _⟩ => ⟨S1x257, .f32⟩
  | .hbm, ⟨5, _⟩ => ⟨S1, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S1x128, .f32⟩
  | .hbm, ⟨14, _⟩ => ⟨S1x128, .f32⟩
  | .hbm, ⟨15, _⟩ => ⟨S12288, .f32⟩
  | .hbm, ⟨16, _⟩ => ⟨S12288, .f32⟩
  | .hbm, ⟨17, _⟩ => ⟨S12288x12288, .f32⟩
  | .hbm, ⟨18, _⟩ => ⟨S_, .i32⟩
  | .hbm, ⟨19, _⟩ => ⟨S393216, .i32⟩
  | .hbm, ⟨20, _⟩ => ⟨S393216, .i1⟩
  | .hbm, ⟨21, _⟩ => ⟨S_, .i32⟩
  | .hbm, ⟨22, _⟩ => ⟨S393216, .i32⟩
  | .hbm, ⟨23, _⟩ => ⟨S393216, .i32⟩
  | .hbm, ⟨24, _⟩ => ⟨S393216, .i32⟩
  | .hbm, ⟨25, _⟩ => ⟨S393216x1, .i32⟩
  | .hbm, ⟨26, _⟩ => ⟨S393216, .f32⟩
  | .hbm, ⟨27, _⟩ => ⟨S_, .i32⟩
  | .hbm, ⟨28, _⟩ => ⟨S393216, .i32⟩
  | .hbm, ⟨29, _⟩ => ⟨S393216, .i1⟩
  | .hbm, ⟨30, _⟩ => ⟨S_, .i32⟩
  | .hbm, ⟨31, _⟩ => ⟨S393216, .i32⟩
  | .hbm, ⟨32, _⟩ => ⟨S393216, .i32⟩
  | .hbm, ⟨33, _⟩ => ⟨S393216, .i32⟩
  | .hbm, ⟨34, _⟩ => ⟨S393216x1, .i32⟩
  | .hbm, ⟨35, _⟩ => ⟨S393216, .f32⟩
  | .hbm, ⟨36, _⟩ => ⟨S393216, .f32⟩
  | .hbm, ⟨37, _⟩ => ⟨S393216, .f32⟩
  | .hbm, ⟨38, _⟩ => ⟨S393216, .f32⟩
  | .hbm, ⟨39, _⟩ => ⟨S393216, .f32⟩
  | .hbm, ⟨40, _⟩ => ⟨S393216, .f32⟩
  | .hbm, ⟨41, _⟩ => ⟨S393216, .f32⟩
  | .hbm, ⟨42, _⟩ => ⟨S393216, .f32⟩
  | .hbm, ⟨43, _⟩ => ⟨S_, .i32⟩
  | .hbm, ⟨44, _⟩ => ⟨S393216, .i32⟩
  | .hbm, ⟨45, _⟩ => ⟨S393216, .i1⟩
  | .hbm, ⟨46, _⟩ => ⟨S_, .i32⟩
  | .hbm, ⟨47, _⟩ => ⟨S393216, .i32⟩
  | .hbm, ⟨48, _⟩ => ⟨S393216, .i32⟩
  | .hbm, ⟨49, _⟩ => ⟨S393216, .i32⟩
  | .hbm, ⟨50, _⟩ => ⟨S_, .i32⟩
  | .hbm, ⟨51, _⟩ => ⟨S393216, .i32⟩
  | .hbm, ⟨52, _⟩ => ⟨S393216, .i1⟩
  | .hbm, ⟨53, _⟩ => ⟨S_, .i32⟩
  | .hbm, ⟨54, _⟩ => ⟨S393216, .i32⟩
  | .hbm, ⟨55, _⟩ => ⟨S393216, .i32⟩
  | .hbm, ⟨56, _⟩ => ⟨S393216, .i32⟩
  | .hbm, ⟨57, _⟩ => ⟨S393216x1, .i32⟩
  | .hbm, ⟨58, _⟩ => ⟨S393216x1, .i32⟩
  | .hbm, ⟨59, _⟩ => ⟨S393216x2, .i32⟩
  | .hbm, ⟨60, _⟩ => ⟨S12288x12288, .f32⟩
  | .local _ .vmem, ⟨0, _⟩ => ⟨S12288x128, .f32⟩
  | .local _ .vmem, ⟨1, _⟩ => ⟨S1x128, .f32⟩
  | .local _ .vmem, ⟨2, _⟩ => ⟨S1x128, .f32⟩
  | .local _ .vmem, ⟨3, _⟩ => ⟨S12288, .f32⟩
  | .local _ .vmem, ⟨4, _⟩ => ⟨S12288, .f32⟩
  | .local _ .vmem, ⟨5, _⟩ => ⟨S256x12288, .f32⟩
  | .local _ .vmem, ⟨6, _⟩ => ⟨S256x12288, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S12288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x12288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

class Facts₀ : Prop where
  slices_S1x257_S1x128_0_0 : S1x257.Slices ![0, 0] S1x128
  shapeCasts_S1x128_S128 : S1x128.ShapeCasts S128
  slices_S1x257_S1x128_0_128 : S1x257.Slices ![0, 128] S1x128
  slices_S1x257_S1x1_0_256 : S1x257.Slices ![0, 256] S1x1
  shapeCasts_S1x1_S_ : S1x1.ShapeCasts S_
  shapeCasts_S1_S_ : S1.ShapeCasts S_
  bcast_S128_S1x128_1 : S128.BroadcastsInDim S1x128 (![1] : Fin 1 → Fin S1x128.rank)
  inb_S12288x128_S12288x128_0_0 : ∀ a, (![0, 0] : Fin 2 → Nat) a + S12288x128.size a ≤ S12288x128.size a
  h_S12288x128 : 0 < S12288x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S12288x128 : S1x128.Broadcasts S12288x128
  reduces_S12288x128_S12288 : S12288x128.Reduces [1] S12288
  inb_S12288_S12288_0 : ∀ a, (![0] : Fin 1 → Nat) a + S12288.size a ≤ S12288.size a
  h_S12288 : 0 < S12288.numel
  inb_S256x12288_S256x12288_0_0 : ∀ a, (![0, 0] : Fin 2 → Nat) a + S256x12288.size a ≤ S256x12288.size a
  h_S256x12288 : 0 < S256x12288.numel
  bcast_S_S393216 : S_.BroadcastsInDim S393216 (![] : Fin 0 → Fin S393216.rank)
  bcast_S393216_S393216x1_0 : S393216.BroadcastsInDim S393216x1 (![0] : Fin 1 → Fin S393216x1.rank)
  shapeCasts_S393216x1_S393216 : S393216x1.ShapeCasts S393216
  concatenates_S393216x1_S393216x1_S393216x2_d1 : Shape.Concatenates [S393216x1, S393216x1] S393216x2 1
  gather_S12288_S393216x1_S393216_n_0_n_n_0_1_1_wf : GatherDims.WF S12288 S393216x1 S393216 [] [0] [] [0] [] 1 ![1]
  scatter_S12288x12288_S393216x2_S393216_n_01_01_1_wf : ScatterDims.WF S12288x12288 S393216x2 S393216 [] [0, 1] [0, 1] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S12288x128.size a ≤ S12288x128.size a
  hwx0_0 : ∀ i : grid0.Coords, EltTy.bits .f32 = 32 ∨ (Rect.block (s := S12288x128) S12288x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12288.size a ≤ S12288.size a
  hwx0_3 : ∀ i : grid0.Coords, EltTy.bits .f32 = 32 ∨ (Rect.block (s := S12288) S12288.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12288.size a ≤ S12288.size a
  hwx0_4 : ∀ i : grid0.Coords, EltTy.bits .f32 = 32 ∨ (Rect.block (s := S12288) S12288.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x12288.size a ≤ S12288x12288.size a
  hwx1_0 : ∀ i : grid1.Coords, EltTy.bits .f32 = 32 ∨ (Rect.block (s := S12288x12288) S256x12288.size (cc1_transform_0 i) (hinb1_0 i)).WholeWords (EltTy.packing .f32)

variable [Facts₀]

def gather_S12288_S393216x1_S393216_n_0_n_n_0_1_1 : GatherDims S12288 S393216x1 S393216 where
  offsetDims := []
  collapsedSliceDims := [0]
  operandBatchingDims := []
  startIndicesBatchingDims := []
  startIndexMap := [0]
  indexVectorDim := 1
  sliceSizes := ![1]
  wf := gather_S12288_S393216x1_S393216_n_0_n_n_0_1_1_wf
def scatter_S12288x12288_S393216x2_S393216_n_01_01_1 : ScatterDims S12288x12288 S393216x2 S393216 where
  updateWindowDims := []
  insertedWindowDims := [0, 1]
  scatterDimsToOperandDims := [0, 1]
  indexVectorDim := 1
  wf := scatter_S12288x12288_S393216x2_S393216_n_01_01_1_wf

abbrev win0_0 : Pipeline.Window sig grid0 :=
  Pipeline.Window.ofSpec (Memref.whole main_arg0) S12288x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S12288.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S12288.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10) S256x12288.size cc1_transform_0 reads1_0 true false 2 stage1_0 sem1_0
    hrank1 hreads1_0 hinb1_0 nbuf1_0 (Memref.isWhole_whole _) hwx1_0 hstage1_0

abbrev win1 : Fin 1 → Pipeline.Window sig grid1 := fun | 0 => win1_0 | ⟨_ + 1, h⟩ => absurd h (Nat.not_lt.2 (Nat.le_add_left _ _))
abbrev spec1 : Fin 1 → Pipeline.WinSpec sig grid1.rank := fun w => (win1 w).toWinSpec

class Facts : Prop extends Facts₀ where

variable [Facts]
-- ==== ReferenceIdeal.lean ====
abbrev S12288x128 : Shape := ⟨2, ![12288, 128]⟩
abbrev S393216 : Shape := ⟨1, ![393216]⟩
abbrev S393216x1 : Shape := ⟨2, ![393216, 1]⟩
abbrev S1x257 : Shape := ⟨2, ![1, 257]⟩
abbrev S1 : Shape := ⟨1, ![1]⟩
abbrev S_ : Shape := ⟨0, ![]⟩
abbrev S393216x128 : Shape := ⟨2, ![393216, 128]⟩
abbrev S393216x257 : Shape := ⟨2, ![393216, 257]⟩
abbrev S257x1 : Shape := ⟨2, ![257, 1]⟩
abbrev S1x1 : Shape := ⟨2, ![1, 1]⟩
abbrev S12288x12288 : Shape := ⟨2, ![12288, 12288]⟩
abbrev S393216x2 : Shape := ⟨2, ![393216, 2]⟩

abbrev nBuf : Space → Nat
  | .hbm => 51
  | .vmem => 0
  | .smem => 0
  | _ => 0

abbrev bufTy : (tb : Table) → Fin (tcTables nBuf tb) → BufTy
  | .hbm, ⟨0, _⟩ => ⟨S12288x128, .f32⟩
  | .hbm, ⟨1, _⟩ => ⟨S393216, .i32⟩
  | .hbm, ⟨2, _⟩ => ⟨S393216, .i32⟩
  | .hbm, ⟨3, _⟩ => ⟨S393216x1, .f32⟩
  | .hbm, ⟨4, _⟩ => ⟨S1x257, .f32⟩
  | .hbm, ⟨5, _⟩ => ⟨S1, .f32⟩
  | .hbm, ⟨6, _⟩ => ⟨S_, .i32⟩
  | .hbm, ⟨7, _⟩ => ⟨S393216, .i32⟩
  | .hbm, ⟨8, _⟩ => ⟨S393216, .i1⟩
  | .hbm, ⟨9, _⟩ => ⟨S_, .i32⟩
  | .hbm, ⟨10, _⟩ => ⟨S393216, .i32⟩
  | .hbm, ⟨11, _⟩ => ⟨S393216, .i32⟩
  | .hbm, ⟨12, _⟩ => ⟨S393216, .i32⟩
  | .hbm, ⟨13, _⟩ => ⟨S393216x1, .i32⟩
  | .hbm, ⟨14, _⟩ => ⟨S393216x128, .f32⟩
  | .hbm, ⟨15, _⟩ => ⟨S_, .i32⟩
  | .hbm, ⟨16, _⟩ => ⟨S393216, .i32⟩
  | .hbm, ⟨17, _⟩ => ⟨S393216, .i1⟩
  | .hbm, ⟨18, _⟩ => ⟨S_, .i32⟩
  | .hbm, ⟨19, _⟩ => ⟨S393216, .i32⟩
  | .hbm, ⟨20, _⟩ => ⟨S393216, .i32⟩
  | .hbm, ⟨21, _⟩ => ⟨S393216, .i32⟩
  | .hbm, ⟨22, _⟩ => ⟨S393216x1, .i32⟩
  | .hbm, ⟨23, _⟩ => ⟨S393216x128, .f32⟩
  | .hbm, ⟨24, _⟩ => ⟨S393216x257, .f32⟩
  | .hbm, ⟨25, _⟩ => ⟨S257x1, .f32⟩
  | .hbm, ⟨26, _⟩ => ⟨S393216x1, .f32⟩
  | .hbm, ⟨27, _⟩ => ⟨S1x1, .f32⟩
  | .hbm, ⟨28, _⟩ => ⟨S393216x1, .f32⟩
  | .hbm, ⟨29, _⟩ => ⟨S393216x1, .f32⟩
  | .hbm, ⟨30, _⟩ => ⟨S393216, .f32⟩
  | .hbm, ⟨31, _⟩ => ⟨S_, .f32⟩
  | .hbm, ⟨32, _⟩ => ⟨S12288x12288, .f32⟩
  | .hbm, ⟨33, _⟩ => ⟨S_, .i32⟩
  | .hbm, ⟨34, _⟩ => ⟨S393216, .i32⟩
  | .hbm, ⟨35, _⟩ => ⟨S393216, .i1⟩
  | .hbm, ⟨36, _⟩ => ⟨S_, .i32⟩
  | .hbm, ⟨37, _⟩ => ⟨S393216, .i32⟩
  | .hbm, ⟨38, _⟩ => ⟨S393216, .i32⟩
  | .hbm, ⟨39, _⟩ => ⟨S393216, .i32⟩
  | .hbm, ⟨40, _⟩ => ⟨S_, .i32⟩
  | .hbm, ⟨41, _⟩ => ⟨S393216, .i32⟩
  | .hbm, ⟨42, _⟩ => ⟨S393216, .i1⟩
  | .hbm, ⟨43, _⟩ => ⟨S_, .i32⟩
  | .hbm, ⟨44, _⟩ => ⟨S393216, .i32⟩
  | .hbm, ⟨45, _⟩ => ⟨S393216, .i32⟩
  | .hbm, ⟨46, _⟩ => ⟨S393216, .i32⟩
  | .hbm, ⟨47, _⟩ => ⟨S393216x1, .i32⟩
  | .hbm, ⟨48, _⟩ => ⟨S393216x1, .i32⟩
  | .hbm, ⟨49, _⟩ => ⟨S393216x2, .i32⟩
  | .hbm, ⟨50, _⟩ => ⟨S12288x12288, .f32⟩
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  bcast_S_S393216 : S_.BroadcastsInDim S393216 (![] : Fin 0 → Fin S393216.rank)
  bcast_S393216_S393216x1_0 : S393216.BroadcastsInDim S393216x1 (![0] : Fin 1 → Fin S393216x1.rank)
  concatenates_S393216x128_S393216x128_S393216x1_S393216x257_d1 : Shape.Concatenates [S393216x128, S393216x128, S393216x1] S393216x257 1
  transposes_S1x257_S257x1_1_0 : S1x257.Transposes [1, 0] S257x1
  bcast_S1_S1x1_1 : S1.BroadcastsInDim S1x1 (![1] : Fin 1 → Fin S1x1.rank)
  bcast_S1x1_S393216x1_0_1 : S1x1.BroadcastsInDim S393216x1 (![0, 1] : Fin 2 → Fin S393216x1.rank)
  shapeCasts_S393216x1_S393216 : S393216x1.ShapeCasts S393216
  bcast_S_S12288x12288 : S_.BroadcastsInDim S12288x12288 (![] : Fin 0 → Fin S12288x12288.rank)
  concatenates_S393216x1_S393216x1_S393216x2_d1 : Shape.Concatenates [S393216x1, S393216x1] S393216x2 1
  gather_S12288x128_S393216x1_S393216x128_1_0_n_n_0_1_1128_wf : GatherDims.WF S12288x128 S393216x1 S393216x128 [1] [0] [] [0] [] 1 ![1, 128]
  dot_S393216x257_S257x1_S393216x1_1_0_0_1_n_n_wf : DotDims.WF S393216x257 S257x1 S393216x1 [1] [0] [0] [1] [] []
  scatter_S12288x12288_S393216x2_S393216_n_01_01_1_wf : ScatterDims.WF S12288x12288 S393216x2 S393216 [] [0, 1] [0, 1] 1

variable [Facts₀]

def gather_S12288x128_S393216x1_S393216x128_1_0_n_n_0_1_1128 : GatherDims S12288x128 S393216x1 S393216x128 where
  offsetDims := [1]
  collapsedSliceDims := [0]
  operandBatchingDims := []
  startIndicesBatchingDims := []
  startIndexMap := [0]
  indexVectorDim := 1
  sliceSizes := ![1, 128]
  wf := gather_S12288x128_S393216x1_S393216x128_1_0_n_n_0_1_1128_wf
def dot_S393216x257_S257x1_S393216x1_1_0_0_1_n_n : DotDims S393216x257 S257x1 S393216x1 where
  lhsContracting := [1]
  rhsContracting := [0]
  lhsNonContracting := [0]
  rhsNonContracting := [1]
  lhsBatch := []
  rhsBatch := []
  wf := dot_S393216x257_S257x1_S393216x1_1_0_0_1_n_n_wf
def scatter_S12288x12288_S393216x2_S393216_n_01_01_1 : ScatterDims S12288x12288 S393216x2 S393216 where
  updateWindowDims := []
  insertedWindowDims := [0, 1]
  scatterDimsToOperandDims := [0, 1]
  indexVectorDim := 1
  wf := scatter_S12288x12288_S393216x2_S393216_n_01_01_1_wf

class Facts : Prop extends Facts₀ where

variable [Facts]
-- ==== Proof.KernelTail.lean ====
/-
  The idealized kernel's result buffer after the run, as one term of the argument arrays.

  After the two regions the program's host tail looks up, per edge, the destination's entry of the first projection and
  the source's entry of the second, adds the edge's weight times the last weight and the bias, and scatters the scores
  into the constant square array at (destination, source). Here that tail is one function `tail` of what the regions
  left and of the arguments. The tail's 43 operations are read in three stretches — the two lookups, the float
  operations that finish an edge's value, the index pairs and the scatter — each for an arbitrary valuation of the
  buffers, and joined by the fold's law for two lines in a row.
-/
import proofs.«139181_j76081050682084_1_alg».proof.Proof.RunKernelIdeal
import Idealize.ShloMosaic.Lib.StableHlo.Run

set_option maxRecDepth 16384

noncomputable section

namespace Cert.KernelIdeal.Tail

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-! ## The host operations as functions -/

/-- An index array's start indices: a negative word shifted up by the table's 12288 rows, laid out as a column. -/
def startIdx (a : IVec S393216 32) : IVec S393216x1 32 :=
  broadcastInDim S393216x1 ![0] bcast_S393216_S393216x1_0
    (select (cmpi .slt a (broadcastInDim S393216 ![] bcast_S_S393216 (constantI S_ 32 0#32)))
      (addi a (broadcastInDim S393216 ![] bcast_S_S393216 (constantI S_ 32 12288#32))) a)

/-- One lookup: the projection's entry at each edge's start index. -/
def lookup (p : FVec F S12288 .f32) (a : IVec S393216 32) : FVec F S393216 .f32 :=
  Host.gather gather_S12288_S393216x1_S393216_n_0_n_n_0_1_1 p (startIdx a)

/-- An edge's value from its two looked-up projections: plus the last weight times the edge's weight, plus the bias. -/
def finish (gd gs : FVec F S393216 .f32) (w : FVec F S393216x1 .f32) (wt bv : FVec F S_ .f32) : FVec F S393216 .f32 :=
  addf (addf (addf gd gs)
      (mulf (broadcastInDim S393216 ![] bcast_S_S393216 wt) (shapeCast S393216 w shapeCasts_S393216x1_S393216)))
    (broadcastInDim S393216 ![] bcast_S_S393216 bv)

/-- Where each edge's value lands: (destination, source), as the scatter's index pairs. -/
def edgeIdx (a1 a2 : IVec S393216 32) : IVec S393216x2 32 :=
  concatenate S393216x2 1 [⟨S393216x1, startIdx a2⟩, ⟨S393216x1, startIdx a1⟩] concatenates_S393216x1_S393216x1_S393216x2_d1

/-- The scatter: the edges' values written into the square array, a later edge over an earlier one. -/
def put (fill : FVec F S12288x12288 .f32) (a1 a2 : IVec S393216 32) (v : FVec F S393216 .f32) : FVec F S12288x12288 .f32 :=
  Host.scatter scatter_S12288x12288_S393216x2_S393216_n_01_01_1 (fun _ b => b) fill (edgeIdx a1 a2) v

/-- The whole host tail. -/
def tail (fill : FVec F S12288x12288 .f32) (hd hs : FVec F S12288 .f32) (a1 a2 : IVec S393216 32)
    (w : FVec F S393216x1 .f32) (wt bv : FVec F S_ .f32) : FVec F S12288x12288 .f32 :=
  put fill a1 a2 (finish (lookup hd a2) (lookup hs a1) w wt bv)

/-! ## The tail's operations in three stretches -/

/-- The two lookups: 18 operations. -/
abbrev opsLook : List (HloOp τ sig (Elt F)) :=
  ( StableHlo.nullary main_c (constantI S_ 32 0#32)
  :: StableHlo.unary main_c main_v11 (broadcastInDim S393216 ![] bcast_S_S393216 : (⟨S_, .i32⟩ : BufTy).Contents (Elt F) → (⟨S393216, .i32⟩ : BufTy).Contents (Elt F))
  :: StableHlo.binary main_arg2 main_v11 main_v12 (cmpi .slt : (⟨S393216, .i32⟩ : BufTy).Contents (Elt F) → (⟨S393216, .i32⟩ : BufTy).Contents (Elt F) → (⟨S393216, .i1⟩ : BufTy).Contents (Elt F))
  :: StableHlo.nullary main_c_0 (constantI S_ 32 12288#32)
  :: StableHlo.unary main_c_0 main_v13 (broadcastInDim S393216 ![] bcast_S_S393216 : (⟨S_, .i32⟩ : BufTy).Contents (Elt F) → (⟨S393216, .i32⟩ : BufTy).Contents (Elt F))
  :: StableHlo.binary main_arg2 main_v13 main_v14 (addi : (⟨S393216, .i32⟩ : BufTy).Contents (Elt F) → (⟨S393216, .i32⟩ : BufTy).Contents (Elt F) → (⟨S393216, .i32⟩ : BufTy).Contents (Elt F))
  :: StableHlo.ternary main_v12 main_v14 main_arg2 main_v15 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F))
  :: StableHlo.unary main_v15 main_v16 (broadcastInDim S393216x1 ![0] bcast_S393216_S393216x1_0 : (⟨S393216, .i32⟩ : BufTy).Contents (Elt F) → (⟨S393216x1, .i32⟩ : BufTy).Contents (Elt F))
  :: StableHlo.binary main_v9_0 main_v16 main_v17 ((fun x i => Host.gather gather_S12288_S393216x1_S393216_n_0_n_n_0_1_1 x i) : (⟨S12288, .f32⟩ : BufTy).Contents (Elt F) → (⟨S393216x1, .i32⟩ : BufTy).Contents (Elt F) → (⟨S393216, .f32⟩ : BufTy).Contents (Elt F))
  :: StableHlo.nullary main_c_1 (constantI S_ 32 0#32)
  :: StableHlo.unary main_c_1 main_v18 (broadcastInDim S393216 ![] bcast_S_S393216 : (⟨S_, .i32⟩ : BufTy).Contents (Elt F) → (⟨S393216, .i32⟩ : BufTy).Contents (Elt F))
  :: StableHlo.binary main_arg1 main_v18 main_v19 (cmpi .slt : (⟨S393216, .i32⟩ : BufTy).Contents (Elt F) → (⟨S393216, .i32⟩ : BufTy).Contents (Elt F) → (⟨S393216, .i1⟩ : BufTy).Contents (Elt F))
  :: StableHlo.nullary main_c_2 (constantI S_ 32 12288#32)
  :: StableHlo.unary main_c_2 main_v20 (broadcastInDim S393216 ![] bcast_S_S393216 : (⟨S_, .i32⟩ : BufTy).Contents (Elt F) → (⟨S393216, .i32⟩ : BufTy).Contents (Elt F))
  :: StableHlo.binary main_arg1 main_v20 main_v21 (addi : (⟨S393216, .i32⟩ : BufTy).Contents (Elt F) → (⟨S393216, .i32⟩ : BufTy).Contents (Elt F) → (⟨S393216, .i32⟩ : BufTy).Contents (Elt F))
  :: StableHlo.ternary main_v19 main_v21 main_arg1 main_v22 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F))
  :: StableHlo.unary main_v22 main_v23 (broadcastInDim S393216x1 ![0] bcast_S393216_S393216x1_0 : (⟨S393216, .i32⟩ : BufTy).Contents (Elt F) → (⟨S393216x1, .i32⟩ : BufTy).Contents (Elt F))
  :: StableHlo.binary main_v9_1 main_v23 main_v24 ((fun x i => Host.gather gather_S12288_S393216x1_S393216_n_0_n_n_0_1_1 x i) : (⟨S12288, .f32⟩ : BufTy).Contents (Elt F) → (⟨S393216x1, .i32⟩ : BufTy).Contents (Elt F) → (⟨S393216, .f32⟩ : BufTy).Contents (Elt F))
  :: [] )

/-- The float operations that finish an edge's value: 7 operations. -/
abbrev opsSum : List (HloOp τ sig (Elt F)) :=
  ( StableHlo.binary main_v17 main_v24 main_v25 (addf : (⟨S393216, .f32⟩ : BufTy).Contents (Elt F) → (⟨S393216, .f32⟩ : BufTy).Contents (Elt F) → (⟨S393216, .f32⟩ : BufTy).Contents (Elt F))
  :: StableHlo.reshape main_arg3 main_v26 rfl shapeCasts_S393216x1_S393216
  :: StableHlo.unary main_v5 main_v27 (broadcastInDim S393216 ![] bcast_S_S393216 : (⟨S_, .f32⟩ : BufTy).Contents (Elt F) → (⟨S393216, .f32⟩ : BufTy).Contents (Elt F))
  :: StableHlo.binary main_v27 main_v26 main_v28 (mulf : (⟨S393216, .f32⟩ : BufTy).Contents (Elt F) → (⟨S393216, .f32⟩ : BufTy).Contents (Elt F) → (⟨S393216, .f32⟩ : BufTy).Contents (Elt F))
  :: StableHlo.binary main_v25 main_v28 main_v29 (addf : (⟨S393216, .f32⟩ : BufTy).Contents (Elt F) → (⟨S393216, .f32⟩ : BufTy).Contents (Elt F) → (⟨S393216, .f32⟩ : BufTy).Contents (Elt F))
  :: StableHlo.unary main_v6 main_v30 (broadcastInDim S393216 ![] bcast_S_S393216 : (⟨S_, .f32⟩ : BufTy).Contents (Elt F) → (⟨S393216, .f32⟩ : BufTy).Contents (Elt F))
  :: StableHlo.binary main_v29 main_v30 main_v31 (addf : (⟨S393216, .f32⟩ : BufTy).Contents (Elt F) → (⟨S393216, .f32⟩ : BufTy).Contents (Elt F) → (⟨S393216, .f32⟩ : BufTy).Contents (Elt F))
  :: [] )

/-- The index pairs and the scatter: 18 operations. -/
abbrev opsPut : List (HloOp τ sig (Elt F)) :=
  ( StableHlo.nullary main_c_3 (constantI S_ 32 0#32)
  :: StableHlo.unary main_c_3 main_v32 (broadcastInDim S393216 ![] bcast_S_S393216 : (⟨S_, .i32⟩ : BufTy).Contents (Elt F) → (⟨S393216, .i32⟩ : BufTy).Contents (Elt F))
  :: StableHlo.binary main_arg2 main_v32 main_v33 (cmpi .slt : (⟨S393216, .i32⟩ : BufTy).Contents (Elt F) → (⟨S393216, .i32⟩ : BufTy).Contents (Elt F) → (⟨S393216, .i1⟩ : BufTy).Contents (Elt F))
  :: StableHlo.nullary main_c_4 (constantI S_ 32 12288#32)
  :: StableHlo.unary main_c_4 main_v34 (broadcastInDim S393216 ![] bcast_S_S393216 : (⟨S_, .i32⟩ : BufTy).Contents (Elt F) → (⟨S393216, .i32⟩ : BufTy).Contents (Elt F))
  :: StableHlo.binary main_arg2 main_v34 main_v35 (addi : (⟨S393216, .i32⟩ : BufTy).Contents (Elt F) → (⟨S393216, .i32⟩ : BufTy).Contents (Elt F) → (⟨S393216, .i32⟩ : BufTy).Contents (Elt F))
  :: StableHlo.ternary main_v33 main_v35 main_arg2 main_v36 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F))
  :: StableHlo.nullary main_c_5 (constantI S_ 32 0#32)
  :: StableHlo.unary main_c_5 main_v37 (broadcastInDim S393216 ![] bcast_S_S393216 : (⟨S_, .i32⟩ : BufTy).Contents (Elt F) → (⟨S393216, .i32⟩ : BufTy).Contents (Elt F))
  :: StableHlo.binary main_arg1 main_v37 main_v38 (cmpi .slt : (⟨S393216, .i32⟩ : BufTy).Contents (Elt F) → (⟨S393216, .i32⟩ : BufTy).Contents (Elt F) → (⟨S393216, .i1⟩ : BufTy).Contents (Elt F))
  :: StableHlo.nullary main_c_6 (constantI S_ 32 12288#32)
  :: StableHlo.unary main_c_6 main_v39 (broadcastInDim S393216 ![] bcast_S_S393216 : (⟨S_, .i32⟩ : BufTy).Contents (Elt F) → (⟨S393216, .i32⟩ : BufTy).Contents (Elt F))
  :: StableHlo.binary main_arg1 main_v39 main_v40 (addi : (⟨S393216, .i32⟩ : BufTy).Contents (Elt F) → (⟨S393216, .i32⟩ : BufTy).Contents (Elt F) → (⟨S393216, .i32⟩ : BufTy).Contents (Elt F))
  :: StableHlo.ternary main_v38 main_v40 main_arg1 main_v41 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F))
  :: StableHlo.unary main_v36 main_v42 (broadcastInDim S393216x1 ![0] bcast_S393216_S393216x1_0 : (⟨S393216, .i32⟩ : BufTy).Contents (Elt F) → (⟨S393216x1, .i32⟩ : BufTy).Contents (Elt F))
  :: StableHlo.unary main_v41 main_v43 (broadcastInDim S393216x1 ![0] bcast_S393216_S393216x1_0 : (⟨S393216, .i32⟩ : BufTy).Contents (Elt F) → (⟨S393216x1, .i32⟩ : BufTy).Contents (Elt F))
  :: StableHlo.binary main_v42 main_v43 main_v44 ((fun a b => concatenate S393216x2 1 [⟨S393216x1, a⟩, ⟨S393216x1, b⟩] concatenates_S393216x1_S393216x1_S393216x2_d1) : (⟨S393216x1, .i32⟩ : BufTy).Contents (Elt F) → (⟨S393216x1, .i32⟩ : BufTy).Contents (Elt F) → (⟨S393216x2, .i32⟩ : BufTy).Contents (Elt F))
  :: StableHlo.ternary main_v10 main_v44 main_v31 main_v45 ((fun x i u => Host.scatter scatter_S12288x12288_S393216x2_S393216_n_01_01_1 (fun _ b => b) x i u) : (⟨S12288x12288, .f32⟩ : BufTy).Contents (Elt F) → (⟨S393216x2, .i32⟩ : BufTy).Contents (Elt F) → (⟨S393216, .f32⟩ : BufTy).Contents (Elt F) → (⟨S12288x12288, .f32⟩ : BufTy).Contents (Elt F))
  :: [] )

/-- The tail is the three stretches in a row. -/
theorem hostOps2_split : (hostOps2 : List (HloOp τ sig (Elt F))) = opsLook ++ (opsSum ++ opsPut) := rfl

variable (X : Valuation τ sig (Elt F))

/-! ### The lookups -/

theorem look_d : after opsLook X (Proc.devRef .tc main_v17)
    = lookup (X (Proc.devRef .tc main_v9_0)) (X (Proc.devRef .tc main_arg2)) := by
  unfold lookup startIdx; after_results <;> rfl
theorem look_s : after opsLook X (Proc.devRef .tc main_v24)
    = lookup (X (Proc.devRef .tc main_v9_1)) (X (Proc.devRef .tc main_arg1)) := by
  unfold lookup startIdx; after_results <;> rfl
theorem look_arg1 : after opsLook X (Proc.devRef .tc main_arg1) = X (Proc.devRef .tc main_arg1) := by after_results <;> rfl
theorem look_arg2 : after opsLook X (Proc.devRef .tc main_arg2) = X (Proc.devRef .tc main_arg2) := by after_results <;> rfl
theorem look_arg3 : after opsLook X (Proc.devRef .tc main_arg3) = X (Proc.devRef .tc main_arg3) := by after_results <;> rfl
theorem look_v5 : after opsLook X (Proc.devRef .tc main_v5) = X (Proc.devRef .tc main_v5) := by after_results <;> rfl
theorem look_v6 : after opsLook X (Proc.devRef .tc main_v6) = X (Proc.devRef .tc main_v6) := by after_results <;> rfl
theorem look_v10 : after opsLook X (Proc.devRef .tc main_v10) = X (Proc.devRef .tc main_v10) := by after_results <;> rfl

/-! ### The float operations -/

theorem sum_vals : after opsSum X (Proc.devRef .tc main_v31)
    = finish (X (Proc.devRef .tc main_v17)) (X (Proc.devRef .tc main_v24)) (X (Proc.devRef .tc main_arg3))
        (X (Proc.devRef .tc main_v5)) (X (Proc.devRef .tc main_v6)) := by
  unfold finish; after_results <;> rfl
theorem sum_arg1 : after opsSum X (Proc.devRef .tc main_arg1) = X (Proc.devRef .tc main_arg1) := by after_results <;> rfl
theorem sum_arg2 : after opsSum X (Proc.devRef .tc main_arg2) = X (Proc.devRef .tc main_arg2) := by after_results <;> rfl
theorem sum_v10 : after opsSum X (Proc.devRef .tc main_v10) = X (Proc.devRef .tc main_v10) := by after_results <;> rfl

/-! ### The scatter -/

set_option maxHeartbeats 2000000 in
theorem put_result : after opsPut X (Proc.devRef .tc main_v45)
    = put (X (Proc.devRef .tc main_v10)) (X (Proc.devRef .tc main_arg1)) (X (Proc.devRef .tc main_arg2))
        (X (Proc.devRef .tc main_v31)) := by
  unfold put edgeIdx startIdx; after_results_simp <;> rfl

/-! ## The three stretches joined -/

/-- The tail's result buffer, from any valuation the tail starts at. -/
theorem after_tail : after hostOps2 X (Proc.devRef .tc main_v45)
    = tail (X (Proc.devRef .tc main_v10)) (X (Proc.devRef .tc main_v9_0)) (X (Proc.devRef .tc main_v9_1))
        (X (Proc.devRef .tc main_arg1)) (X (Proc.devRef .tc main_arg2)) (X (Proc.devRef .tc main_arg3))
        (X (Proc.devRef .tc main_v5)) (X (Proc.devRef .tc main_v6)) := by
  rw [hostOps2_split, StableHlo.after_append, StableHlo.after_append, put_result, sum_vals, sum_arg1, sum_arg2, sum_v10,
    look_d, look_s, look_arg1, look_arg2, look_arg3, look_v5, look_v6, look_v10]
  rfl

end Cert.KernelIdeal.Tail

end
-- ==== Proof.KernelRegions.lean ====
/-
  What the idealized kernel's two regions leave in their output arrays, for any contents `V` the buffers hold when a
  region is entered.

  Region 0 has one grid point, and each of its five windows is its whole array (block index 0 on every axis). So the
  point's input blocks are the arrays themselves, and what the point writes back to the two result vectors is the
  body's two row sums of the whole feature table against the two weight rows: the vectors end holding exactly those.

  Region 1 has 48 grid points; point `t` writes rows `256·t … 256·t + 255` of the square result, every entry the one
  constant word. The 48 blocks tile the 12288 rows, so the array ends constant.
-/
import proofs.«139181_j76081050682084_1_alg».proof.Proof.FrameKernelIdeal
import Idealize.ShloMosaic.Lib.Pipeline.Value

set_option maxRecDepth 16384

noncomputable section

namespace Cert.KernelIdeal.Regions

open Cert.KernelIdeal Cert.KernelIdeal.Gen Cert.KernelIdeal.GenP
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem zero1 : (![0] : Fin 1 → Nat) = fun _ => 0 := funext fun a => by fin_cases a; rfl
theorem zero2 : (![0, 0] : Fin 2 → Nat) = fun _ => 0 := funext fun a => by fin_cases a <;> rfl

/-! ## Region 0: the two projections -/

/-- Every window of region 0 sits at block index 0 on every axis, at the grid's one point. -/
theorem index0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0 :=
  (by decide +kernel : ∀ t : Fin grid0.N, _)

/-- The feature table's block at the point is the table. -/
theorem iblk0_0 (c : Dev nD) (t : Fin cfg0.N) : iblk0 V c 0 t = V c main_arg0 := by
  obtain ⟨e0, e1, -⟩ := index0 t
  funext y
  show V c main_arg0 (((cfg0.win 0).blk t).view.emb y) = V c main_arg0 y
  refine congrArg (V c main_arg0) (funext fun a => Fin.ext ?_)
  match a with
  | ⟨0, _⟩ => show win0_0.index t (0 : Fin 2) * 12288 + 1 * (y 0).val = (y 0).val; omega
  | ⟨1, _⟩ => show win0_0.index t (1 : Fin 2) * 128 + 1 * (y 1).val = (y 1).val; omega

/-- The first weight row's block at the point is the row. -/
theorem iblk0_1 (c : Dev nD) (t : Fin cfg0.N) : iblk0 V c 1 t = V c main_v7 := by
  obtain ⟨-, -, e0, e1, -⟩ := index0 t
  funext y
  show V c main_v7 (((cfg0.win 1).blk t).view.emb y) = V c main_v7 y
  refine congrArg (V c main_v7) (funext fun a => Fin.ext ?_)
  match a with
  | ⟨0, _⟩ => show win0_1.index t (0 : Fin 2) * 1 + 1 * (y 0).val = (y 0).val; omega
  | ⟨1, _⟩ => show win0_1.index t (1 : Fin 2) * 128 + 1 * (y 1).val = (y 1).val; omega

/-- The second weight row's block at the point is the row. -/
theorem iblk0_2 (c : Dev nD) (t : Fin cfg0.N) : iblk0 V c 2 t = V c main_v8 := by
  obtain ⟨-, -, -, -, e0, e1, -⟩ := index0 t
  funext y
  show V c main_v8 (((cfg0.win 2).blk t).view.emb y) = V c main_v8 y
  refine congrArg (V c main_v8) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What the point writes back to the first result vector: the block (the whole vector) of the first row sum. -/
theorem flushed3_eq (c : Dev nD) (t : Fin cfg0.N) :
    (dat0 V c).flushed 3 t
      = ((cfg0.win 3).blk t).view.read (Elt F) (k0_pay1 (V c main_arg0) (V c main_v7)) := by
  show (cfg0.win 3).cut (grid0.coords t) ((dat0 V c).after 3 t) = _
  rw [after0_3]
  unfold out0_3
  rw [View.canon_unit_zero zero1]
  simp only [View.ld_unit_zero (S := S12288x128) zero2, View.ld_unit_zero (S := S1x128) zero2]
  rw [iblk0_0, iblk0_1]
  obtain ⟨-, -, -, -, -, -, e0, -⟩ := index0 t
  funext j
  show k0_pay1 (V c main_arg0) (V c main_v7) j = k0_pay1 (V c main_arg0) (V c main_v7) (((cfg0.win 3).blk t).view.emb j)
  refine congrArg (k0_pay1 (V c main_arg0) (V c main_v7)) (funext fun a => Fin.ext ?_)
  match a with
  | ⟨0, _⟩ => show (j 0).val = win0_3.index t (0 : Fin 1) * 12288 + 1 * (j 0).val; omega

/-- What the point writes back to the second result vector: the block of the second row sum. -/
theorem flushed4_eq (c : Dev nD) (t : Fin cfg0.N) :
    (dat0 V c).flushed 4 t
      = ((cfg0.win 4).blk t).view.read (Elt F) (k0_pay2 (V c main_arg0) (V c main_v8)) := by
  show (cfg0.win 4).cut (grid0.coords t) ((dat0 V c).after 4 t) = _
  rw [after0_4]
  unfold out0_4
  rw [View.canon_unit_zero zero1]
  simp only [View.ld_unit_zero (S := S12288x128) zero2, View.ld_unit_zero (S := S1x128) zero2]
  rw [iblk0_0, iblk0_2]
  obtain ⟨-, -, -, -, -, -, -, e0⟩ := index0 t
  funext j
  show k0_pay2 (V c main_arg0) (V c main_v8) j = k0_pay2 (V c main_arg0) (V c main_v8) (((cfg0.win 4).blk t).view.emb j)
  refine congrArg (k0_pay2 (V c main_arg0) (V c main_v8)) (funext fun a => Fin.ext ?_)
  match a with
  | ⟨0, _⟩ => show (j 0).val = win0_4.index t (0 : Fin 1) * 12288 + 1 * (j 0).val; omega

/-- An entry of the first result vector is in the point's block iff it is in the block's range. -/
theorem mem_blk3 (t : Fin cfg0.N) (i : S12288.Idx) :
    i ∈ ((cfg0.win 3).blk t).view.set
      ↔ ∀ a : Fin 1, win0_3.index t a * S12288.size a ≤ (i a).val ∧ (i a).val < win0_3.index t a * S12288.size a + S12288.size a := by
  show i ∈ ((View.whole main_v9_0).slice (win0_3.rect t)).set ↔ _
  rw [View.set_slice_whole, Rect.mem_set_unit]
  exact Iff.rfl

theorem mem_blk4 (t : Fin cfg0.N) (i : S12288.Idx) :
    i ∈ ((cfg0.win 4).blk t).view.set
      ↔ ∀ a : Fin 1, win0_4.index t a * S12288.size a ≤ (i a).val ∧ (i a).val < win0_4.index t a * S12288.size a + S12288.size a := by
  show i ∈ ((View.whole main_v9_1).slice (win0_4.rect t)).set ↔ _
  rw [View.set_slice_whole, Rect.mem_set_unit]
  exact Iff.rfl

/-- THE FIRST RESULT VECTOR after region 0: the row sums of the table against the first weight row. -/
theorem proj_d (c : Dev nD) : (dat0 V c).arrAt 3 cfg0.N = k0_pay1 (V c main_arg0) (V c main_v7) :=
  (dat0 V c).arrAt_eq_of_cover 3 (k0_pay1 (V c main_arg0) (V c main_v7)) (fun t _ => flushed3_eq V c t) fun i => by
    refine ⟨t0_0, flush0_3 t0_0, ?_⟩
    rw [mem_blk3]
    obtain ⟨-, -, -, -, -, -, e0, -⟩ := index0 t0_0
    intro a
    match a with
    | ⟨0, _⟩ =>
      show win0_3.index t0_0 (0 : Fin 1) * 12288 ≤ (i 0).val ∧ (i 0).val < win0_3.index t0_0 (0 : Fin 1) * 12288 + 12288
      have hi : (i 0).val < 12288 := (i 0).isLt
      omega

/-- THE SECOND RESULT VECTOR after region 0: the row sums of the table against the second weight row. -/
theorem proj_s (c : Dev nD) : (dat0 V c).arrAt 4 cfg0.N = k0_pay2 (V c main_arg0) (V c main_v8) :=
  (dat0 V c).arrAt_eq_of_cover 4 (k0_pay2 (V c main_arg0) (V c main_v8)) (fun t _ => flushed4_eq V c t) fun i => by
    refine ⟨t0_0, flush0_4 t0_0, ?_⟩
    rw [mem_blk4]
    obtain ⟨-, -, -, -, -, -, -, e0⟩ := index0 t0_0
    intro a
    match a with
    | ⟨0, _⟩ =>
      show win0_4.index t0_0 (0 : Fin 1) * 12288 ≤ (i 0).val ∧ (i 0).val < win0_4.index t0_0 (0 : Fin 1) * 12288 + 12288
      have hi : (i 0).val < 12288 := (i 0).isLt
      omega

/-! ## Region 1: the constant fill -/

/-- The square array every entry of which is the fill word. -/
abbrev fillArr : S12288x12288.Idx → Elt F .f32 := fun _ => Scalar.ofBits .f32 0xCE6E6B28#32

/-- Point `t` of region 1 sits at block row `t`, block column 0. -/
theorem index1 : ∀ t : Fin cfg1.N, win1_0.index t (0 : Fin 2) = t.val ∧ win1_0.index t (1 : Fin 2) = 0 :=
  (by decide +kernel : ∀ t : Fin grid1.N, _)

/-- What point `t` writes back: a block of the constant array. -/
theorem flushed_fill (c : Dev nD) (t : Fin cfg1.N) :
    (dat1 V c).flushed 0 t = ((cfg1.win 0).blk t).view.read (Elt F) (fillArr (F := F)) := by
  show (cfg1.win 0).cut (grid1.coords t) ((dat1 V c).after 0 t) = _
  rw [after1_0]
  unfold out1_0
  rw [View.canon_unit_zero zero2]
  rfl

/-- An entry of the square array is in point `t`'s block iff each coordinate is in the block's range. -/
theorem mem_blk_fill (t : Fin cfg1.N) (i : S12288x12288.Idx) :
    i ∈ ((cfg1.win 0).blk t).view.set
      ↔ ∀ a : Fin 2, win1_0.index t a * S256x12288.size a ≤ (i a).val ∧ (i a).val < win1_0.index t a * S256x12288.size a + S256x12288.size a := by
  show i ∈ ((View.whole main_v10).slice (win1_0.rect t)).set ↔ _
  rw [View.set_slice_whole, Rect.mem_set_unit]
  exact Iff.rfl

/-- THE SQUARE ARRAY after region 1: constant. Row `r` is written by point `r / 256`. -/
theorem fill_eq (c : Dev nD) : (dat1 V c).arrAt 0 cfg1.N = fillArr (F := F) :=
  (dat1 V c).arrAt_eq_of_cover 0 (fillArr (F := F)) (fun t _ => flushed_fill V c t) fun i => by
    have hi0 : (i 0).val < 12288 := (i 0).isLt
    have hi1 : (i 1).val < 12288 := (i 1).isLt
    have hN : grid1.N = 48 := N_1
    let t : Fin cfg1.N := ⟨(i 0).val / 256, by show (i 0).val / 256 < grid1.N; omega⟩
    refine ⟨t, flush1_0 t, ?_⟩
    rw [mem_blk_fill]
    obtain ⟨e0, e1⟩ := index1 t
    have ht : t.val = (i 0).val / 256 := rfl
    intro a
    match a with
    | ⟨0, _⟩ =>
      show win1_0.index t (0 : Fin 2) * 256 ≤ (i 0).val ∧ (i 0).val < win1_0.index t (0 : Fin 2) * 256 + 256
      omega
    | ⟨1, _⟩ =>
      show win1_0.index t (1 : Fin 2) * 12288 ≤ (i 1).val ∧ (i 1).val < win1_0.index t (1 : Fin 2) * 12288 + 12288
      omega

end Cert.KernelIdeal.Regions

end
-- ==== Proof.LibLookup.lean ====
/-
  Three general readings, over literal-size shapes, that a "gather the endpoints, take a dot product" program needs.

  * the vector lookup `table[idx]` of a one-axis table `[N]` at start indices `[E, 1]`: entry `e` of the result is
    the table's entry `r`, with `r` the start word of `e` read signed, a negative word sent to `0`, clipped to `N - 1`;
  * a sum along the second axis of an `[N, C]` array, read at row `n`: the sum over `k : Fin C` of the entries `(n, k)`;
  * a sum over `Fin (a + b + 1)` split into its first `a` terms, its next `b` terms and its last term.
-/
import Idealize.ShloMosaic.PureOps.Ideal.Laws
import Idealize.ShloMosaic.Lib.ValueIdx

noncomputable section

open scoped BigOperators

namespace Cert.LibLookup

open Idealize.ShloMosaic Idealize.ShloMosaic.ValueIdx

/-! ## The vector lookup -/

/-- The lookup's dimension numbers: table `[N]`, start indices `[E, 1]`, result `[E]`; the one table axis is
    collapsed, and the start index is the last axis of the indices. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR LOOKUP READ AT `e`: the table's entry `r`, `r` the start word of `e` read signed, a negative word
    sent to `0`, clipped to the last entry. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## A row's sum -/

/-- Over result row `n`, the source index with column `k` inserted is `(n, k)`. -/
theorem lift_row {N C : Nat} (h : Shape.Reduces ⟨2, ![N, C]⟩ [1] ⟨1, ![N]⟩) (n : Fin N) (k : Fin C) :
    h.lift (ix1 n) k = ix2 n k := by
  funext c
  refine Fin.ext ?_
  match c with
  | ⟨0, _⟩ => rfl
  | ⟨1, _⟩ => rfl

/-- THE SUM ALONG THE SECOND AXIS, READ AT ROW `n`, at the ideal values: the sum of the row's entries. -/
theorem rowSum_apply {φ : FTy} {N C : Nat} (src : FVec Ideal ⟨2, ![N, C]⟩ φ) (acc : BitVec φ.bits)
    (h : Shape.Reduces ⟨2, ![N, C]⟩ [1] ⟨1, ![N]⟩) (hφ : FKind.Formats φ) (hacc : acc = FKind.add.neutral φ hφ)
    (n : Fin N) :
    multiReduction .add [1] ⟨1, ![N]⟩ src acc h hφ hacc (ix1 n) = ∑ k : Fin C, src (ix2 n k) :=
  (Ideal.multiReduction_add_single src acc h hφ hacc (ix1 n)).trans
    (Finset.sum_congr rfl fun k _ => congrArg src (lift_row h n k))

/-! ## A sum split in three -/

/-- A sum over `a + b + 1` terms is the sum of the first `a`, plus the sum of the next `b`, plus the last. -/
theorem sum_split3 {M : Type*} [AddCommMonoid M] (a b : Nat) (f : Fin (a + b + 1) → M) :
    ∑ j, f j = (∑ k : Fin a, f ⟨k.val, by omega⟩) + (∑ k : Fin b, f ⟨a + k.val, by omega⟩) + f ⟨a + b, by omega⟩ := by
  rw [Fin.sum_univ_castSucc, Fin.sum_univ_add]
  rfl

end Cert.LibLookup

end
-- ==== Proof.Spec.lean ====
/-
  The score of one edge, as one function of the argument arrays.

  An edge `e` has a destination word and a source word; each selects a row of the feature table `h : [12288, 128]`
  (the word read signed, a negative word sent to row `0`, clipped to the last row). The edge's score is the dot product
  of the 257-vector  (destination row ‖ source row ‖ edge weight)  with the weight row `W : [1, 257]`, plus the bias:

      score e = Σ_{k<128} h[d e, k]·W[0, k] + Σ_{k<128} h[s e, k]·W[0, 128 + k] + w[e, 0]·W[0, 256] + b[0].

  Both programs compute this number for every edge: one as a single 257-term product, the other as two projections of
  the whole table taken once and looked up per edge. Only associativity and commutativity of `+` and `·` on the extended
  reals separate the two, so no finiteness of the inputs is used.
-/
import Idealize.ShloMosaic.PureOps.Ideal
import Idealize.ShloMosaic.Lib.ValueIdx

noncomputable section

open scoped BigOperators

namespace Cert.EdgeScore

open Idealize.ShloMosaic Idealize.ShloMosaic.ValueIdx

/-- The table row edge `e`'s start word selects: the word read signed, a negative word sent to `0`, clipped to the
    last of the 12288 rows. -/
def rowOf {w : Nat} (s : IVec ⟨2, ![393216, 1]⟩ w) (e : Fin 393216) : Fin 12288 :=
  ⟨min (s (ix2 e 0)).toInt.toNat (12288 - 1), by omega⟩

/-- The score of edge `e`: destination row against the first 128 weights, source row against the next 128, the edge's
    weight against the last, plus the bias. -/
def score (h : (⟨2, ![12288, 128]⟩ : Shape).Idx → EReal) (sd ss : IVec ⟨2, ![393216, 1]⟩ 32)
    (wt : (⟨2, ![393216, 1]⟩ : Shape).Idx → EReal) (W : (⟨2, ![1, 257]⟩ : Shape).Idx → EReal)
    (b : (⟨1, ![1]⟩ : Shape).Idx → EReal) (e : Fin 393216) : EReal :=
  (∑ k : Fin 128, h (ix2 (rowOf sd e) k) * W (ix2 (0 : Fin 1) (⟨k.val, by omega⟩ : Fin 257)))
    + (∑ k : Fin 128, h (ix2 (rowOf ss e) k) * W (ix2 (0 : Fin 1) (⟨128 + k.val, by omega⟩ : Fin 257)))
    + wt (ix2 e (0 : Fin 1)) * W (ix2 (0 : Fin 1) (⟨256, by omega⟩ : Fin 257))
    + b (ix1 (0 : Fin 1))

/-- All the edges' scores, as an array over the 393216 edges. -/
def scores (h : (⟨2, ![12288, 128]⟩ : Shape).Idx → EReal) (sd ss : IVec ⟨2, ![393216, 1]⟩ 32)
    (wt : (⟨2, ![393216, 1]⟩ : Shape).Idx → EReal) (W : (⟨2, ![1, 257]⟩ : Shape).Idx → EReal)
    (b : (⟨1, ![1]⟩ : Shape).Idx → EReal) : (⟨1, ![393216]⟩ : Shape).Idx → EReal :=
  fun e => score h sd ss wt W b (e 0)

theorem scores_ix1 (h : (⟨2, ![12288, 128]⟩ : Shape).Idx → EReal) (sd ss : IVec ⟨2, ![393216, 1]⟩ 32)
    (wt : (⟨2, ![393216, 1]⟩ : Shape).Idx → EReal) (W : (⟨2, ![1, 257]⟩ : Shape).Idx → EReal)
    (b : (⟨1, ![1]⟩ : Shape).Idx → EReal) (e : Fin 393216) :
    scores h sd ss wt W b (ix1 e) = score h sd ss wt W b e := rfl

end Cert.EdgeScore

end
-- ==== Proof.KernelValue.lean ====
/-
  The idealized kernel's result, traced to the launch memory, and its per-edge values read as the specification's scores.

  Part 1 (any float family): each buffer the host tail reads is followed back through the boundaries of @main. The
  square array is what region 1 leaves (constant); the two projections are what region 0 leaves (the body's row sums
  of the feature table against the two weight rows the first host stretch lays out); the index arrays, the edge
  weights, the last weight and the bias are arguments or pieces of arguments, touched by no region.

  Part 2 (the ideal values): at edge `e` a lookup reads its projection at the row the edge's start word selects; a
  projection's entry is the sum over the 128 columns of table entry times weight; the last weight and the bias are
  broadcast scalars. So the edge's value is  Σ h[d,k]·W[k] + Σ h[s,k]·W[128+k] + W[256]·w[e] + b,  the specification's
  score up to the order of one product.
-/
import proofs.«139181_j76081050682084_1_alg».proof.Proof.KernelTail
import proofs.«139181_j76081050682084_1_alg».proof.Proof.KernelRegions
import proofs.«139181_j76081050682084_1_alg».proof.Proof.LibLookup
import proofs.«139181_j76081050682084_1_alg».proof.Proof.Spec
import Idealize.ShloMosaic.Lib.ValueLayout

set_option maxRecDepth 16384

noncomputable section

open scoped BigOperators

namespace Cert.KernelIdeal.Result

open Cert.KernelIdeal Cert.KernelIdeal.Gen Cert.KernelIdeal.GenP Cert.KernelIdeal.Regions Cert.KernelIdeal.Tail
open Idealize.ShloMosaic Idealize.ShloMosaic.TcCoe Idealize.SL.Sem Idealize.ShloMosaic.StableHlo Idealize.ShloMosaic.ValueIdx

variable {F : FTy → Type} [FloatOps F]

/-! ## The pieces of the weight row and the bias, as the first host stretch lays them out -/

/-- The first 128 weights, as the row region 0 multiplies the table by. -/
def wrowD (W : FVec F S1x257 .f32) : FVec F S1x128 .f32 :=
  broadcastInDim S1x128 ![1] bcast_S128_S1x128_1
    (shapeCast S128 (extractStridedSlice S1x128 ![0, 0] W slices_S1x257_S1x128_0_0) shapeCasts_S1x128_S128)

/-- The next 128 weights, likewise. -/
def wrowS (W : FVec F S1x257 .f32) : FVec F S1x128 .f32 :=
  broadcastInDim S1x128 ![1] bcast_S128_S1x128_1
    (shapeCast S128 (extractStridedSlice S1x128 ![0, 128] W slices_S1x257_S1x128_0_128) shapeCasts_S1x128_S128)

/-- The last weight, as a scalar. -/
def wlast (W : FVec F S1x257 .f32) : FVec F S_ .f32 :=
  shapeCast S_ (extractStridedSlice S1x1 ![0, 256] W slices_S1x257_S1x1_0_256) shapeCasts_S1x1_S_

/-- The bias, as a scalar. -/
def bias (b : FVec F S1 .f32) : FVec F S_ .f32 := shapeCast S_ b shapeCasts_S1_S_

variable (m : (ℓ : Loc nD τ sig) → Buf (Elt F) ℓ) (ρ : Dev nD → PrngReg)

/-! ## Part 1: the boundaries read back -/

/-! ### After the first host stretch -/

theorem W1_arg0 (c : Dev nD) : W1 m ρ c (Proc.devRef .tc main_arg0) = m ((c : Thread nD τ).loc main_arg0) := by
  show after hostOps0 (W0 m ρ c) (Proc.devRef .tc main_arg0) = _; after_results <;> rfl
theorem W1_arg1 (c : Dev nD) : W1 m ρ c (Proc.devRef .tc main_arg1) = m ((c : Thread nD τ).loc main_arg1) := by
  show after hostOps0 (W0 m ρ c) (Proc.devRef .tc main_arg1) = _; after_results <;> rfl
theorem W1_arg2 (c : Dev nD) : W1 m ρ c (Proc.devRef .tc main_arg2) = m ((c : Thread nD τ).loc main_arg2) := by
  show after hostOps0 (W0 m ρ c) (Proc.devRef .tc main_arg2) = _; after_results <;> rfl
theorem W1_arg3 (c : Dev nD) : W1 m ρ c (Proc.devRef .tc main_arg3) = m ((c : Thread nD τ).loc main_arg3) := by
  show after hostOps0 (W0 m ρ c) (Proc.devRef .tc main_arg3) = _; after_results <;> rfl
theorem W1_v7 (c : Dev nD) : W1 m ρ c (Proc.devRef .tc main_v7) = wrowD (m ((c : Thread nD τ).loc main_arg4)) := by
  unfold wrowD; show after hostOps0 (W0 m ρ c) (Proc.devRef .tc main_v7) = _; after_results <;> rfl
theorem W1_v8 (c : Dev nD) : W1 m ρ c (Proc.devRef .tc main_v8) = wrowS (m ((c : Thread nD τ).loc main_arg4)) := by
  unfold wrowS; show after hostOps0 (W0 m ρ c) (Proc.devRef .tc main_v8) = _; after_results <;> rfl
theorem W1_v5 (c : Dev nD) : W1 m ρ c (Proc.devRef .tc main_v5) = wlast (m ((c : Thread nD τ).loc main_arg4)) := by
  unfold wlast; show after hostOps0 (W0 m ρ c) (Proc.devRef .tc main_v5) = _; after_results <;> rfl
theorem W1_v6 (c : Dev nD) : W1 m ρ c (Proc.devRef .tc main_v6) = bias (m ((c : Thread nD τ).loc main_arg5)) := by
  unfold bias; show after hostOps0 (W0 m ρ c) (Proc.devRef .tc main_v6) = _; after_results <;> rfl

/-! ### After both regions -/

/-- A buffer that is an array of neither region holds after them what it held before. -/
theorem W3_untouched (c : Dev nD) (b : Ref sig .tc) (h1 : ∀ w, Pipeline.arrRef spec1 w ≠ b) (h0 : ∀ w, Pipeline.arrRef spec0 w ≠ b) :
    W3 m ρ c (Proc.devRef .tc b) = W1 m ρ c (Proc.devRef .tc b) :=
  (W3_of_ne m ρ c b h1).trans (W2_of_ne m ρ c b h0)

theorem W3_arg1 (c : Dev nD) : W3 m ρ c (Proc.devRef .tc main_arg1) = m ((c : Thread nD τ).loc main_arg1) :=
  (W3_untouched m ρ c main_arg1 (by decide) (by decide)).trans (W1_arg1 m ρ c)
theorem W3_arg2 (c : Dev nD) : W3 m ρ c (Proc.devRef .tc main_arg2) = m ((c : Thread nD τ).loc main_arg2) :=
  (W3_untouched m ρ c main_arg2 (by decide) (by decide)).trans (W1_arg2 m ρ c)
theorem W3_arg3 (c : Dev nD) : W3 m ρ c (Proc.devRef .tc main_arg3) = m ((c : Thread nD τ).loc main_arg3) :=
  (W3_untouched m ρ c main_arg3 (by decide) (by decide)).trans (W1_arg3 m ρ c)
theorem W3_v5 (c : Dev nD) : W3 m ρ c (Proc.devRef .tc main_v5) = wlast (m ((c : Thread nD τ).loc main_arg4)) :=
  (W3_untouched m ρ c main_v5 (by decide) (by decide)).trans (W1_v5 m ρ c)
theorem W3_v6 (c : Dev nD) : W3 m ρ c (Proc.devRef .tc main_v6) = bias (m ((c : Thread nD τ).loc main_arg5)) :=
  (W3_untouched m ρ c main_v6 (by decide) (by decide)).trans (W1_v6 m ρ c)

/-- The square array after both regions: constant. -/
theorem W3_v10 (c : Dev nD) : W3 m ρ c (Proc.devRef .tc main_v10) = fillArr (F := F) :=
  (W3_arr m ρ c 0).trans (fill_eq (V2 m ρ) c)

/-- The first projection after both regions: the table's row sums against the first 128 weights. -/
theorem W3_v9_0 (c : Dev nD) :
    W3 m ρ c (Proc.devRef .tc main_v9_0)
      = k0_pay1 (m ((c : Thread nD τ).loc main_arg0)) (wrowD (m ((c : Thread nD τ).loc main_arg4))) := by
  refine (W3_of_ne m ρ c main_v9_0 (by decide)).trans ((W2_arr m ρ c 3).trans ((proj_d (V1 m ρ) c).trans ?_))
  show k0_pay1 (W1 m ρ c (Proc.devRef .tc main_arg0)) (W1 m ρ c (Proc.devRef .tc main_v7)) = _
  rw [W1_arg0, W1_v7]

/-- The second projection: the row sums against the next 128 weights. -/
theorem W3_v9_1 (c : Dev nD) :
    W3 m ρ c (Proc.devRef .tc main_v9_1)
      = k0_pay2 (m ((c : Thread nD τ).loc main_arg0)) (wrowS (m ((c : Thread nD τ).loc main_arg4))) := by
  refine (W3_of_ne m ρ c main_v9_1 (by decide)).trans ((W2_arr m ρ c 4).trans ((proj_s (V1 m ρ) c).trans ?_))
  show k0_pay2 (W1 m ρ c (Proc.devRef .tc main_arg0)) (W1 m ρ c (Proc.devRef .tc main_v8)) = _
  rw [W1_arg0, W1_v8]

/-- THE RESULT BUFFER at the last boundary, as the tail of the argument arrays. -/
theorem result_eq (c : Dev nD) :
    W4 m ρ c (Proc.devRef .tc main_v45)
      = tail (fillArr (F := F))
          (k0_pay1 (m ((c : Thread nD τ).loc main_arg0)) (wrowD (m ((c : Thread nD τ).loc main_arg4))))
          (k0_pay2 (m ((c : Thread nD τ).loc main_arg0)) (wrowS (m ((c : Thread nD τ).loc main_arg4))))
          (m ((c : Thread nD τ).loc main_arg1)) (m ((c : Thread nD τ).loc main_arg2)) (m ((c : Thread nD τ).loc main_arg3))
          (wlast (m ((c : Thread nD τ).loc main_arg4))) (bias (m ((c : Thread nD τ).loc main_arg5))) := by
  show after hostOps2 (W3 m ρ c) (Proc.devRef .tc main_v45) = _
  rw [after_tail, W3_v10, W3_v9_0, W3_v9_1, W3_arg1, W3_arg2, W3_arg3, W3_v5, W3_v6]

/-! ## Part 2: an edge's value at the ideal values -/

section AtIdeal

/-- Entry `k` of the first weight row is weight `k`. -/
theorem wrowD_apply (W : FVec Ideal S1x257 .f32) (k : Fin 128) :
    wrowD W (ix2 (0 : Fin 1) k) = W (ix2 (0 : Fin 1) (⟨k.val, by omega⟩ : Fin 257)) := by
  unfold wrowD
  refine (broadcastInDim_apply _ bcast_S128_S1x128_1 _ (ix2 (0 : Fin 1) k) (ix1 k) (fun a => ?_)).trans ?_
  · match a with
    | ⟨0, _⟩ => exact (if_neg (show ¬((128 : ℕ) = 1) by omega)).symm
  refine (shapeCast_1a_a_apply _ shapeCasts_S1x128_S128 k).trans ?_
  exact slice2_axis1_apply 0 W slices_S1x257_S1x128_0_0 (0 : Fin 1) k (⟨k.val, by omega⟩ : Fin 257) (Nat.zero_add _).symm

/-- Entry `k` of the second weight row is weight `128 + k`. -/
theorem wrowS_apply (W : FVec Ideal S1x257 .f32) (k : Fin 128) :
    wrowS W (ix2 (0 : Fin 1) k) = W (ix2 (0 : Fin 1) (⟨128 + k.val, by omega⟩ : Fin 257)) := by
  unfold wrowS
  refine (broadcastInDim_apply _ bcast_S128_S1x128_1 _ (ix2 (0 : Fin 1) k) (ix1 k) (fun a => ?_)).trans ?_
  · match a with
    | ⟨0, _⟩ => exact (if_neg (show ¬((128 : ℕ) = 1) by omega)).symm
  refine (shapeCast_1a_a_apply _ shapeCasts_S1x128_S128 k).trans ?_
  exact slice2_axis1_apply 128 W slices_S1x257_S1x128_0_128 (0 : Fin 1) k (⟨128 + k.val, by omega⟩ : Fin 257) rfl

/-- The last weight, broadcast over the edges, is weight 256 at every edge. -/
theorem wlast_apply (W : FVec Ideal S1x257 .f32) (e : Fin 393216) :
    broadcastInDim S393216 ![] bcast_S_S393216 (wlast W) (ix1 e) = W (ix2 (0 : Fin 1) (⟨256, by omega⟩ : Fin 257)) := by
  refine (broadcastInDim_apply _ bcast_S_S393216 _ (ix1 e) ix0 (fun a => a.elim0)).trans ?_
  unfold wlast
  refine (shapeCast_apply _ shapeCasts_S1x1_S_ ix0 (ix2 (0 : Fin 1) (0 : Fin 1)) ?_).trans ?_
  · have h1 : (Shape.rowMajor S1x1 (ix2 (0 : Fin 1) (0 : Fin 1))).val < 1 := (Shape.rowMajor S1x1 _).isLt
    have h2 : (Shape.rowMajor S_ ix0).val < 1 := (Shape.rowMajor S_ _).isLt
    omega
  exact slice2_axis1_apply 256 W slices_S1x257_S1x1_0_256 (0 : Fin 1) (0 : Fin 1) (⟨256, by omega⟩ : Fin 257) rfl

/-- The bias, broadcast over the edges, is the bias at every edge. -/
theorem bias_apply (b : FVec Ideal S1 .f32) (e : Fin 393216) :
    broadcastInDim S393216 ![] bcast_S_S393216 (bias b) (ix1 e) = b (ix1 (0 : Fin 1)) := by
  refine (broadcastInDim_apply _ bcast_S_S393216 _ (ix1 e) ix0 (fun a => a.elim0)).trans ?_
  unfold bias
  refine shapeCast_apply _ shapeCasts_S1_S_ ix0 (ix1 (0 : Fin 1)) ?_
  have h1 : (Shape.rowMajor S1 (ix1 (0 : Fin 1))).val < 1 := (Shape.rowMajor S1 _).isLt
  have h2 : (Shape.rowMajor S_ ix0).val < 1 := (Shape.rowMajor S_ _).isLt
  omega

/-- The edge weights with their unit axis dropped: entry `e` is the weight of edge `e`. -/
theorem weight_apply (w : FVec Ideal S393216x1 .f32) (e : Fin 393216) :
    shapeCast S393216 w shapeCasts_S393216x1_S393216 (ix1 e) = w (ix2 e (0 : Fin 1)) :=
  shapeCast_apply w shapeCasts_S393216x1_S393216 (ix1 e) (ix2 e (0 : Fin 1)) (by
    rw [Shape.rowMajor_val_two, Shape.rowMajor_val_one]
    show e.val * 1 + 0 = e.val
    omega)

/-- The first projection's entry `n`: the sum over the columns of table entry times weight-row entry. -/
theorem pay1_apply (h : FVec Ideal S12288x128 .f32) (r : FVec Ideal S1x128 .f32) (n : Fin 12288) :
    k0_pay1 h r (ix1 n) = ∑ k : Fin 128, h (ix2 n k) * r (ix2 (0 : Fin 1) k) := by
  unfold k0_pay1
  refine (LibLookup.rowSum_apply _ _ reduces_S12288x128_S12288 _ _ n).trans (Finset.sum_congr rfl fun k _ => ?_)
  show h (ix2 n k) * broadcastTo S12288x128 (shapeCast S1x128 r shapeCasts_S1x128_S1x128) broadcasts_S1x128_S12288x128 (ix2 n k) = _
  rw [broadcastTo_1b_ab_apply, shapeCast_self]

/-- The second projection's entry `n`, likewise. -/
theorem pay2_apply (h : FVec Ideal S12288x128 .f32) (r : FVec Ideal S1x128 .f32) (n : Fin 12288) :
    k0_pay2 h r (ix1 n) = ∑ k : Fin 128, h (ix2 n k) * r (ix2 (0 : Fin 1) k) := by
  unfold k0_pay2
  refine (LibLookup.rowSum_apply _ _ reduces_S12288x128_S12288 _ _ n).trans (Finset.sum_congr rfl fun k _ => ?_)
  show h (ix2 n k) * broadcastTo S12288x128 (shapeCast S1x128 r shapeCasts_S1x128_S1x128) broadcasts_S1x128_S12288x128 (ix2 n k) = _
  rw [broadcastTo_1b_ab_apply, shapeCast_self]

/-- A lookup at edge `e` reads its projection at the row the edge's start word selects. -/
theorem lookup_apply (p : FVec Ideal S12288 .f32) (a : IVec S393216 32) (e : Fin 393216) :
    lookup p a (ix1 e) = p (ix1 (EdgeScore.rowOf (startIdx a) e)) :=
  LibLookup.gather_vec_apply (by omega) gather_S12288_S393216x1_S393216_n_0_n_n_0_1_1_wf p (startIdx a) e

/-- THE KERNEL'S VALUE AT EDGE `e` is the specification's score, at the start indices the tail lays out. -/
theorem vals_apply (h : FVec Ideal S12288x128 .f32) (a1 a2 : IVec S393216 32) (w : FVec Ideal S393216x1 .f32)
    (W : FVec Ideal S1x257 .f32) (b : FVec Ideal S1 .f32) (e : Fin 393216) :
    finish (lookup (k0_pay1 h (wrowD W)) a2) (lookup (k0_pay2 h (wrowS W)) a1) w (wlast W) (bias b) (ix1 e)
      = EdgeScore.score h (startIdx a2) (startIdx a1) w W b e := by
  unfold finish EdgeScore.score
  show lookup (k0_pay1 h (wrowD W)) a2 (ix1 e) + lookup (k0_pay2 h (wrowS W)) a1 (ix1 e)
      + broadcastInDim S393216 ![] bcast_S_S393216 (wlast W) (ix1 e) * shapeCast S393216 w shapeCasts_S393216x1_S393216 (ix1 e)
      + broadcastInDim S393216 ![] bcast_S_S393216 (bias b) (ix1 e) = _
  rw [lookup_apply, lookup_apply, pay1_apply, pay2_apply, wlast_apply, weight_apply, bias_apply,
    mul_comm (W (ix2 (0 : Fin 1) (⟨256, by omega⟩ : Fin 257)))]
  refine congrArg (· + b (ix1 (0 : Fin 1))) (congrArg (· + w (ix2 e (0 : Fin 1)) * W (ix2 (0 : Fin 1) (⟨256, by omega⟩ : Fin 257))) ?_)
  exact congrArg₂ (· + ·) (Finset.sum_congr rfl fun k _ => by rw [wrowD_apply])
    (Finset.sum_congr rfl fun k _ => by rw [wrowS_apply])

/-- The kernel's per-edge array is the specification's. -/
theorem vals_eq (h : FVec Ideal S12288x128 .f32) (a1 a2 : IVec S393216 32) (w : FVec Ideal S393216x1 .f32)
    (W : FVec Ideal S1x257 .f32) (b : FVec Ideal S1 .f32) :
    finish (lookup (k0_pay1 h (wrowD W)) a2) (lookup (k0_pay2 h (wrowS W)) a1) w (wlast W) (bias b)
      = EdgeScore.scores h (startIdx a2) (startIdx a1) w W b := by
  funext e
  rw [eq_ix1 e]
  exact vals_apply h a1 a2 w W b (e 0)

end AtIdeal

end Cert.KernelIdeal.Result

end
-- ==== Proof.LibGS.lean ====
/-
  Three index-level readings of the host's gather and accumulating scatter, for the dimension numbers of a row
  lookup `table[idx]` and of the segment sums `zeros.at[idx].add(updates)` over rows and over scalars.

  * rows gather: entry `(e, k)` of the result is the table's entry `(r, k)`, `r` the start word of edge `e` read
    signed, negative words sent to row 0, clipped to the last row;
  * rows scatter-add: entry `(s, k)` of the result is the operand's entry plus the sum of the updates' entries
    `(e, k)` over the edges `e` whose start word, read signed and not clipped, is `s`;
  * vector scatter-add: the same with scalars in place of rows.

  Each is stated over the record given by its literal fields, with the well-formedness proof a variable, so that it
  applies to any program's record with those fields by unfolding the record's name.
-/
import Idealize.ShloMosaic.PureOps.Ideal
import Idealize.ShloMosaic.Lib.ValueIdx
import Idealize.ShloMosaic.Lib.ValueIdxRank1

noncomputable section

open scoped BigOperators

namespace Cert.LibGS

open Idealize.ShloMosaic Idealize.ShloMosaic.ValueIdx

/-! ## The records -/

/-- The scalar segment sum's dimension numbers: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row segment sum's dimension numbers: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row lookup's dimension numbers: table `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-! ## When an update lands on an element -/

/-- An update lands on operand element `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i H
      intro a
      have h1 := congrFun (Option.some.inj h) a
      have h2 := congrArg Fin.val h1
      simp only at h2
      have := H a
      omega
    · exact absurd h (by simp)
  · intro h
    have H : ∀ a, 0 ≤ d.start j idx a + (d.window j a : ℤ) ∧ d.start j idx a + (d.window j a : ℤ) < s.size a := by
      intro a
      have := h a
      have := (i a).isLt
      omega
    rw [dif_pos H]
    congr 1
    funext a
    apply Fin.ext
    have := h a
    simp only
    omega

/-! ## The scalar segment sum -/

section Vec
variable {N E w : Nat} (wf : ScatterDims.WF ⟨1, ![N]⟩ ⟨2, ![E, 1]⟩ ⟨1, ![E]⟩ [] [0] [0] 1)

/-- Update `j` starts at the word `idx[j, 0]`, read signed. -/
theorem vec_start (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no window coordinate. -/
theorem vec_window (j : (⟨1, ![E]⟩ : Shape).Idx) : (vecScatterDims N E wf).window j 0 = 0 := by
  unfold ScatterDims.window
  rw [dif_neg]
  show (0 : Fin 1) ∉ (List.finRange 1).filter (fun a => a ∉ [(0 : Fin 1)])
  decide

/-- Update `j` lands on element `s` exactly when its start word, read signed, is `s`. -/
theorem vec_resultIdx?_iff (idx : IVec ⟨2, ![E, 1]⟩ w) (j : (⟨1, ![E]⟩ : Shape).Idx) (s : Fin N) :
    (vecScatterDims N E wf).resultIdx? j idx = some (ix1 s) ↔ (idx (ix2 (j 0) 0)).toInt = (s.val : ℤ) := by
  rw [resultIdx?_eq_some_iff]
  constructor
  · intro h
    have h0 := h 0
    rw [vec_start, vec_window] at h0
    have h1 : (idx (ix2 (j 0) 0)).toInt + ((0 : ℕ) : ℤ) = (s.val : ℤ) := h0
    simpa using h1
  · intro h a
    obtain rfl : a = 0 := Subsingleton.elim _ _
    rw [vec_start, vec_window]
    show (idx (ix2 (j 0) 0)).toInt + ((0 : ℕ) : ℤ) = (s.val : ℤ)
    simpa using h

end Vec

/-- THE SCALAR SEGMENT SUM READ AT `s`: the operand's entry plus the updates of the edges whose start word, read
    signed, is `s`. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (s : Fin N) :
    Ideal.hostScatterAdd (vecScatterDims N E wf) x idx upd (ix1 s)
      = x (ix1 s) + ∑ e ∈ Finset.univ.filter (fun e : Fin E => (idx (ix2 e 0)).toInt = (s.val : ℤ)), upd (ix1 e) := by
  unfold Ideal.hostScatterAdd
  congr 1
  rw [Finset.sum_filter, Finset.sum_filter, ← Equiv.sum_comp (idxEquiv1 (n := E)).symm]
  refine Finset.sum_congr rfl fun e _ => ?_
  exact if_congr (vec_resultIdx?_iff wf idx (ix1 e) s) rfl rfl

/-! ## The row segment sum -/

section Rows
variable {N E C w : Nat} (wf : ScatterDims.WF ⟨2, ![N, C]⟩ ⟨2, ![E, 1]⟩ ⟨2, ![E, C]⟩ [1] [0] [0] 1)

/-- On the row axis update `j` starts at the word `idx[j₀, 0]`, read signed … -/
theorem rows_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 (idx : IVec ⟨2, ![E, 1]⟩ w) (j : (⟨2, ![E, C]⟩ : Shape).Idx) :
    (rowScatterDims N E C wf).start j idx 1 = 0 := by
  unfold ScatterDims.start
  rw [dif_neg]
  show (1 : Fin 2) ∉ [(0 : Fin 2)]
  decide

/-- The row axis is inserted: no window coordinate there … -/
theorem rows_window0 (j : (⟨2, ![E, C]⟩ : Shape).Idx) : (rowScatterDims N E C wf).window j 0 = 0 := by
  unfold ScatterDims.window
  rw [dif_neg]
  show (0 : Fin 2) ∉ (List.finRange 2).filter (fun a => a ∉ [(0 : Fin 2)])
  decide

/-- … and the column axis carries the update's column. -/
theorem rows_window1 (j : (⟨2, ![E, C]⟩ : Shape).Idx) : (rowScatterDims N E C wf).window j 1 = (j 1).val := by
  unfold ScatterDims.window
  have hm : (1 : Fin 2) ∈ (rowScatterDims N E C wf).sKept := by
    show (1 : Fin 2) ∈ (List.finRange 2).filter (fun a => a ∉ [(0 : Fin 2)])
    decide
  rw [dif_pos hm]
  rfl

/-- Update `j` lands on element `(s, k)` exactly when its start word, read signed, is `s` and its column is `k`. -/
theorem rows_resultIdx?_iff (idx : IVec ⟨2, ![E, 1]⟩ w) (j : (⟨2, ![E, C]⟩ : Shape).Idx) (s : Fin N) (k : Fin C) :
    (rowScatterDims N E C wf).resultIdx? j idx = some (ix2 s k)
      ↔ (idx (ix2 (j 0) 0)).toInt = (s.val : ℤ) ∧ j 1 = k := by
  rw [resultIdx?_eq_some_iff]
  constructor
  · intro h
    have h0 := h 0
    have h1 := h 1
    rw [rows_start0, rows_window0] at h0
    rw [rows_start1, rows_window1] at h1
    have h0' : (idx (ix2 (j 0) 0)).toInt + ((0 : ℕ) : ℤ) = (s.val : ℤ) := h0
    have h1' : (0 : ℤ) + (((j 1).val : ℕ) : ℤ) = (k.val : ℤ) := h1
    refine ⟨by simpa using h0', Fin.ext ?_⟩
    omega
  · rintro ⟨h0, h1⟩ a
    match a with
    | ⟨0, _⟩ =>
      show (rowScatterDims N E C wf).start j idx 0 + (((rowScatterDims N E C wf).window j 0 : ℕ) : ℤ) = (s.val : ℤ)
      rw [rows_start0, rows_window0]
      simpa using h0
    | ⟨1, _⟩ =>
      show (rowScatterDims N E C wf).start j idx 1 + (((rowScatterDims N E C wf).window j 1 : ℕ) : ℤ) = (k.val : ℤ)
      rw [rows_start1, rows_window1, h1]
      simp

end Rows

/-- THE ROW SEGMENT SUM READ AT `(s, k)`: the operand's entry plus the updates' entries `(e, k)` of the edges whose
    start word, read signed, is `s`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (s : Fin N) (k : Fin C) :
    Ideal.hostScatterAdd (rowScatterDims N E C wf) x idx upd (ix2 s k)
      = x (ix2 s k)
        + ∑ e ∈ Finset.univ.filter (fun e : Fin E => (idx (ix2 e 0)).toInt = (s.val : ℤ)), upd (ix2 e k) := by
  unfold Ideal.hostScatterAdd
  congr 1
  rw [Finset.sum_filter, Finset.sum_filter, sum_idx2]
  refine Finset.sum_congr rfl fun e _ => ?_
  by_cases hP : (idx (ix2 e 0)).toInt = (s.val : ℤ)
  · rw [if_pos hP, Finset.sum_eq_single k]
    · exact if_pos ((rows_resultIdx?_iff wf idx (ix2 e k) s k).2 ⟨hP, rfl⟩)
    · intro b _ hb
      exact if_neg fun h => hb ((rows_resultIdx?_iff wf idx (ix2 e b) s k).1 h).2
    · intro h
      exact absurd (Finset.mem_univ k) h
  · rw [if_neg hP]
    exact Finset.sum_eq_zero fun b _ => if_neg fun h => hP ((rows_resultIdx?_iff wf idx (ix2 e b) s k).1 h).1

/-! ## The row lookup -/

/-- THE ROW LOOKUP READ AT `(e, k)`: the table's entry `(r, k)`, `r` the start word of `e` read signed, a negative
    word sent to `0`, clipped to the last row. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg]
      show (1 : Fin 2) ∉ [(0 : Fin 2)]
      decide
    have ho : (rowGatherDims N E C wf).offCoord (ix2 e k) 1 = k.val := by
      unfold GatherDims.offCoord
      have hm : (1 : Fin 2) ∈ (rowGatherDims N E C wf).sKept := by
        show (1 : Fin 2) ∈ (List.finRange 2).filter (fun a => a ∉ [(0 : Fin 2)] ++ [])
        decide
      rw [dif_pos hm]
      rfl
    rw [hs, ho]
    omega

end Cert.LibGS

end
-- ==== Proof.RefValue.lean ====
/-
  The idealized reference's per-edge values are the specification's scores.

  The reference builds, per edge, the 257-vector (destination row ‖ source row ‖ edge weight) by two row lookups and a
  concatenation, multiplies it into the transposed weight row, adds the bias and drops the unit axis. Read at edge `e`
  this is a sum of 257 products plus the bias; the concatenation sends the first 128 terms to the destination row, the
  next 128 to the source row and the last to the edge's weight, which is the specification's arrangement exactly.
-/
import proofs.«139181_j76081050682084_1_alg».proof.Proof.Gen.ReferenceIdeal.Run
import proofs.«139181_j76081050682084_1_alg».proof.Proof.Gen.ReferenceIdeal.Read
import proofs.«139181_j76081050682084_1_alg».proof.Proof.LibGS
import proofs.«139181_j76081050682084_1_alg».proof.Proof.LibLookup
import proofs.«139181_j76081050682084_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-! ## The three-piece concatenation read at a column -/

section Cat
variable {α : Type} (y0 y1 : S393216x128.Idx → α) (y2 : S393216x1.Idx → α)

/-- Columns 0 … 127 of the joined array are the first piece's. -/
theorem cat_first (e : Fin 393216) (k : Fin 128) :
    concatenate S393216x257 1 [⟨S393216x128, y0⟩, ⟨S393216x128, y1⟩, ⟨S393216x1, y2⟩]
        concatenates_S393216x128_S393216x128_S393216x1_S393216x257_d1 (ix2 e (⟨k.val, by omega⟩ : Fin 257))
      = y0 (ix2 e k) :=
  concatenate_apply_piece 1 _ _ (ix2 e (⟨k.val, by omega⟩ : Fin 257)) 0 (by simp) S393216x128 y0 rfl rfl 0 rfl (ix2 e k)
    (fun b hb => by
      match b with
      | ⟨0, _⟩ => rfl
      | ⟨1, _⟩ => exact absurd rfl hb)
    (Nat.zero_add _)

/-- Columns 128 … 255 are the second piece's. -/
theorem cat_second (e : Fin 393216) (k : Fin 128) :
    concatenate S393216x257 1 [⟨S393216x128, y0⟩, ⟨S393216x128, y1⟩, ⟨S393216x1, y2⟩]
        concatenates_S393216x128_S393216x128_S393216x1_S393216x257_d1 (ix2 e (⟨128 + k.val, by omega⟩ : Fin 257))
      = y1 (ix2 e k) :=
  concatenate_apply_piece 1 _ _ (ix2 e (⟨128 + k.val, by omega⟩ : Fin 257)) 1 (by simp) S393216x128 y1 rfl rfl 128 rfl (ix2 e k)
    (fun b hb => by
      match b with
      | ⟨0, _⟩ => rfl
      | ⟨1, _⟩ => exact absurd rfl hb)
    rfl

/-- Column 256 is the third piece's one column. -/
theorem cat_third (e : Fin 393216) :
    concatenate S393216x257 1 [⟨S393216x128, y0⟩, ⟨S393216x128, y1⟩, ⟨S393216x1, y2⟩]
        concatenates_S393216x128_S393216x128_S393216x1_S393216x257_d1 (ix2 e (⟨256, by omega⟩ : Fin 257))
      = y2 (ix2 e (0 : Fin 1)) :=
  concatenate_apply_piece 1 _ _ (ix2 e (⟨256, by omega⟩ : Fin 257)) 2 (by simp) S393216x1 y2 rfl rfl 256 rfl (ix2 e (0 : Fin 1))
    (fun b hb => by
      match b with
      | ⟨0, _⟩ => rfl
      | ⟨1, _⟩ => exact absurd rfl hb)
    rfl

end Cat

/-! ## The reference's stages at an edge -/

variable (x0 : (⟨S12288x128, .f32⟩ : BufTy).Contents (Elt Ideal)) (x1 x2 : (⟨S393216, .i32⟩ : BufTy).Contents (Elt Ideal))
  (x3 : (⟨S393216x1, .f32⟩ : BufTy).Contents (Elt Ideal)) (x4 : (⟨S1x257, .f32⟩ : BufTy).Contents (Elt Ideal))
  (x5 : (⟨S1, .f32⟩ : BufTy).Contents (Elt Ideal))

/-- The destination rows looked up: entry `(e, k)` is the table's entry `(row of e, k)`. -/
theorem dstRows_apply (e : Fin 393216) (k : Fin 128) :
    val_main_v6 (F := Ideal) x0 x2 (ix2 e k) = x0 (ix2 (EdgeScore.rowOf (val_main_v5 (F := Ideal) x2) e) k) :=
  LibGS.gather_rows_apply (by omega) gather_S12288x128_S393216x1_S393216x128_1_0_n_n_0_1_1128_wf x0 (val_main_v5 (F := Ideal) x2) e k

/-- The source rows looked up. -/
theorem srcRows_apply (e : Fin 393216) (k : Fin 128) :
    val_main_v13 (F := Ideal) x0 x1 (ix2 e k) = x0 (ix2 (EdgeScore.rowOf (val_main_v12 (F := Ideal) x1) e) k) :=
  LibGS.gather_rows_apply (by omega) gather_S12288x128_S393216x1_S393216x128_1_0_n_n_0_1_1128_wf x0 (val_main_v12 (F := Ideal) x1) e k

/-- The contraction's left index at edge `e`, term `j`, is `(e, j)`. -/
theorem lidx_eq (e : Fin 393216) (j : Fin 257) : lidx_main_v16 (idx_main_v20 (ix1 e)) j = ix2 e j := by
  funext a
  refine Fin.ext ?_
  match a with
  | ⟨0, _⟩ => exact Nat.div_one _
  | ⟨1, _⟩ => rfl

/-- The transposed weight row at the contraction's right index is the weight row at `(0, j)`. -/
theorem wcol_apply (e : Fin 393216) (j : Fin 257) :
    val_main_v15 (F := Ideal) x4 (ridx_main_v16 (idx_main_v20 (ix1 e)) j) = x4 (ix2 (0 : Fin 1) j) := by
  rw [val_main_v15_apply]
  refine congrArg x4 (funext fun a => Fin.ext ?_)
  match a with
  | ⟨0, _⟩ => rfl
  | ⟨1, _⟩ => rfl

/-- The broadcast bias at any edge is the bias. -/
theorem bias_apply (e : Fin 393216) :
    val_main_v18 (F := Ideal) x5 (idx_main_v20 (ix1 e)) = x5 (ix1 (0 : Fin 1)) := by
  rw [val_main_v18_apply, val_main_v17_apply]
  refine congrArg x5 (funext fun a => Fin.ext ?_)
  match a with
  | ⟨0, _⟩ => rfl

/-- THE REFERENCE'S VALUE AT EDGE `e` is the specification's score, at the start indices the reference lays out. -/
theorem vals_apply (e : Fin 393216) :
    val_main_v20 (F := Ideal) x0 x1 x2 x3 x4 x5 (ix1 e)
      = EdgeScore.score x0 (val_main_v5 (F := Ideal) x2) (val_main_v12 (F := Ideal) x1) x3 x4 x5 e := by
  rw [val_main_v20_apply, val_main_v19_apply, val_main_v16_apply, bias_apply]
  unfold EdgeScore.score
  refine congrArg (· + x5 (ix1 (0 : Fin 1))) ?_
  refine (LibLookup.sum_split3 128 128 _).trans ?_
  refine congrArg₂ (· + ·) (congrArg₂ (· + ·) (Finset.sum_congr rfl fun k _ => ?_) (Finset.sum_congr rfl fun k _ => ?_)) ?_
  · rw [lidx_eq, wcol_apply]
    unfold val_main_v14
    rw [cat_first, dstRows_apply]
  · rw [lidx_eq, wcol_apply]
    unfold val_main_v14
    rw [cat_second, srcRows_apply]
  · rw [lidx_eq, wcol_apply]
    unfold val_main_v14
    rw [cat_third]

/-- The reference's per-edge array is the specification's. -/
theorem vals_eq :
    val_main_v20 (F := Ideal) x0 x1 x2 x3 x4 x5
      = EdgeScore.scores x0 (val_main_v5 (F := Ideal) x2) (val_main_v12 (F := Ideal) x1) x3 x4 x5 := by
  funext e
  rw [eq_ix1 e]
  exact vals_apply x0 x1 x2 x3 x4 x5 (e 0)

/-- The reference's filled square array: every entry the fill word. -/
theorem fill_eq : val_main_v21 (F := Ideal) = fun _ => Ideal.ofBits .f32 0xCE6E6B28#32 := by
  funext i
  rw [val_main_v21_apply, val_main_cst_apply]
  rfl

end Cert.ReferenceIdeal.RefValue

end
-- ==== Proof.Bridge.lean ====
/-
  The two idealized programs' results are one function of the argument arrays.

  Each side ends in the same scatter: the per-edge values written into the constant square array at the pairs
  (destination, source), the pairs computed from the two index arrays by the same operations. The reference's per-edge
  values and the kernel's are both the specification's scores, over the same start indices; the filled arrays are the
  same constant. So the results agree.
-/
import proofs.«139181_j76081050682084_1_alg».proof.Proof.KernelValue
import proofs.«139181_j76081050682084_1_alg».proof.Proof.RefValue

noncomputable section

namespace Cert.Bridge

open Idealize.ShloMosaic
open Cert.ReferenceIdeal.Read Cert.ReferenceIdeal.RefValue
open Cert.KernelIdeal.Tail Cert.KernelIdeal.Result Cert.KernelIdeal.Regions

variable (x0 : FVec Ideal ⟨2, ![12288, 128]⟩ .f32) (x1 x2 : IVec ⟨1, ![393216]⟩ 32)
  (x3 : FVec Ideal ⟨2, ![393216, 1]⟩ .f32) (x4 : FVec Ideal ⟨2, ![1, 257]⟩ .f32) (x5 : FVec Ideal ⟨1, ![1]⟩ .f32)

/-- The destination start indices: the two programs lay them out by the same operations. -/
theorem start_d : val_main_v5 (F := Ideal) x2 = startIdx x2 := rfl
/-- The source start indices, likewise. -/
theorem start_s : val_main_v12 (F := Ideal) x1 = startIdx x1 := rfl
/-- The scatter's index pairs, likewise. -/
theorem pairs : val_main_v34 (F := Ideal) x1 x2 = edgeIdx x1 x2 := rfl
/-- The filled square arrays: the same word at every entry. -/
theorem fills : (fun _ => Ideal.ofBits .f32 0xCE6E6B28#32 : (⟨2, ![12288, 12288]⟩ : Shape).Idx → EReal) = fillArr (F := Ideal) := rfl

/-- THE REFERENCE'S RESULT is the kernel's host tail of the same argument arrays, the projections taken by the
    kernel's two row sums. -/
theorem result_eq :
    val_main_v35 (F := Ideal) x0 x1 x2 x3 x4 x5
      = tail (fillArr (F := Ideal)) (Cert.KernelIdeal.Gen.k0_pay1 x0 (wrowD x4)) (Cert.KernelIdeal.Gen.k0_pay2 x0 (wrowS x4))
          x1 x2 x3 (wlast x4) (bias x5) := by
  unfold val_main_v35 tail put
  rw [Cert.ReferenceIdeal.RefValue.vals_eq, Cert.ReferenceIdeal.RefValue.fill_eq, Cert.KernelIdeal.Result.vals_eq,
    start_d, start_s, pairs, fills]
  rfl

end Cert.Bridge

end
-- ==== Proof.lean ====
/-
  Edge scores of a graph scattered into a square matrix: the kernel against its reference, over the extended reals.

  Both programs score every edge `e` by the dot product of (row of the destination ‖ row of the source ‖ edge weight)
  with a 257-wide weight row, plus a bias, and write the score into a 12288 × 12288 array, filled with one constant
  word, at (destination, source); a later edge overwrites an earlier one at the same place. The reference gathers the
  two rows per edge and takes one 257-term product. The kernel splits the weight row: region 0 multiplies the whole
  feature table by the first and by the second 128 weights, once (two row sums per table row), region 1 fills the
  square array, and the host tail looks the two projections up per edge, adds the last weight times the edge's weight
  and the bias, and scatters.

  At the ideal values a row sum is a finite sum and both matrix products are finite sums of products, so the two
  per-edge values differ by splitting a 257-term sum into 128 + 128 + 1 terms and by the order of one product:
  associativity and commutativity of + and · on the extended reals, which hold at the infinities too. The
  precondition (finite inputs) is therefore not used. Index words out of range are treated alike by both programs:
  the same normalisation and the same clipping select the same table row, and the scatter is the same operation on
  the same index pairs.

  The three frames: each kernel's is the several-regions launch over @main's four segments (host stretch, region 0,
  region 1, host tail); the reference's is its run with the result dropped. The ideal pass rewrote nothing, so
  `preserves` has nothing to state.
-/
import proofs.«139181_j76081050682084_1_alg».proof.Defs
import proofs.«139181_j76081050682084_1_alg».proof.Proof.Gen.Kernel
import proofs.«139181_j76081050682084_1_alg».proof.Proof.Gen.Kernel.Skeleton
import proofs.«139181_j76081050682084_1_alg».proof.Proof.Gen.Kernel.Launch
import proofs.«139181_j76081050682084_1_alg».proof.Proof.Gen.Kernel.Points
import proofs.«139181_j76081050682084_1_alg».proof.Proof.FrameKernel
import proofs.«139181_j76081050682084_1_alg».proof.Proof.Gen.KernelIdeal
import proofs.«139181_j76081050682084_1_alg».proof.Proof.Gen.KernelIdeal.Skeleton
import proofs.«139181_j76081050682084_1_alg».proof.Proof.Gen.KernelIdeal.Launch
import proofs.«139181_j76081050682084_1_alg».proof.Proof.Gen.KernelIdeal.Points
import proofs.«139181_j76081050682084_1_alg».proof.Proof.FrameKernelIdeal
import proofs.«139181_j76081050682084_1_alg».proof.Proof.Gen.ReferenceIdeal
import proofs.«139181_j76081050682084_1_alg».proof.Proof.Gen.ReferenceIdeal.Run
import proofs.«139181_j76081050682084_1_alg».proof.Proof.Gen.ReferenceIdeal.Read
import proofs.«139181_j76081050682084_1_alg».proof.Proof.Gen.Pre_finite_inputs
import proofs.«139181_j76081050682084_1_alg».proof.Proof.RunKernelIdeal
import proofs.«139181_j76081050682084_1_alg».proof.Proof.KernelValue
import proofs.«139181_j76081050682084_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.GenP.frame m ρ

/-- The idealized kernel runs and keeps its arguments. -/
theorem frame_ki : Cert.frame_KernelIdeal := fun m ρ _ => Cert.KernelIdeal.GenP.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten by the ideal pass. -/
theorem preserves : Cert.preserves_Kernel_KernelIdeal := trivial

/-- From memories agreeing on the arguments both idealized programs end, the kernel's result buffer at the host tail
    of what its regions leave, the reference's at its composed term; the two are one function of the arguments. -/
theorem algebraic : Cert.algebraic_KernelIdeal_ReferenceIdeal := by
  intro m ρ m' ρ' _ hagree
  refine ⟨fun c => Cert.KernelIdeal.GenP.W4 m ρ c (Proc.devRef .tc Cert.KernelIdeal.main_v45),
    Cert.KernelIdeal.GenP.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1, (hagree c).2.2.2.1,
    (hagree c).2.2.2.2.1, (hagree c).2.2.2.2.2]
  exact (Cert.Bridge.result_eq _ _ _ _ _ _).trans (Cert.KernelIdeal.Result.result_eq (F := Ideal) m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
